-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S13x256x512 : Shape := ⟨3, ![13, 256, 512]⟩
abbrev S12x256x512 : Shape := ⟨3, ![12, 256, 512]⟩
abbrev S12x256x128 : Shape := ⟨3, ![12, 256, 128]⟩
abbrev S_ : Shape := ⟨0, ![]⟩

class Facts : Prop where
  bcast_S_S13x256x512 : S_.BroadcastsInDim S13x256x512 (![] : Fin 0 → Fin S13x256x512.rank)
  reducesTo_S13x256x512_S_d0_1_2 : S13x256x512.ReducesTo [0, 1, 2] S_
  h_S_ : 0 < S_.numel
  bcast_S_S12x256x512 : S_.BroadcastsInDim S12x256x512 (![] : Fin 0 → Fin S12x256x512.rank)
  reducesTo_S12x256x512_S_d0_1_2 : S12x256x512.ReducesTo [0, 1, 2] S_

variable [Facts]

def fn {F : FTy → Type} [FloatOps F] (main_arg0 : FVec F S13x256x512 .f32) (main_arg1 : FVec F S12x256x512 .f32) (main_arg2 : IVec S12x256x128 32) (main_arg3 : IVec S12x256x128 32) : IVec S_ 1 :=
  let main_v0 : FVec F S13x256x512 .f32 := Host.absf main_arg0
  let main_cst : FVec F S_ .f32 := constant S_ .f32 0x7F800000#32
  let main_v1 : FVec F S13x256x512 .f32 := broadcastInDim S13x256x512 ![] bcast_S_S13x256x512 main_cst
  let main_v2 : IVec S13x256x512 1 := cmpf .olt main_v0 main_v1
  let main_c : IVec S_ 1 := constantI S_ 1 1#1
  let main_v3 : IVec S_ 1 := (fun x v => Host.reduce IntOp.andi x v reducesTo_S13x256x512_S_d0_1_2 h_S_) main_v2 main_c
  let main_v4 : FVec F S12x256x512 .f32 := Host.absf main_arg1
  let main_cst_0 : FVec F S_ .f32 := constant S_ .f32 0x7F800000#32
  let main_v5 : FVec F S12x256x512 .f32 := broadcastInDim S12x256x512 ![] bcast_S_S12x256x512 main_cst_0
  let main_v6 : IVec S12x256x512 1 := cmpf .olt main_v4 main_v5
  let main_c_1 : IVec S_ 1 := constantI S_ 1 1#1
  let main_v7 : IVec S_ 1 := (fun x v => Host.reduce IntOp.andi x v reducesTo_S12x256x512_S_d0_1_2 h_S_) main_v6 main_c_1
  let main_v8 : IVec S_ 1 := andi main_v3 main_v7
  main_v8
-- ==== Kernel.lean ====
abbrev S13x256x512 : Shape := ⟨3, ![13, 256, 512]⟩
abbrev S12x256x512 : Shape := ⟨3, ![12, 256, 512]⟩
abbrev S12x256x128 : Shape := ⟨3, ![12, 256, 128]⟩
abbrev S1x256x512 : Shape := ⟨3, ![1, 256, 512]⟩
abbrev S_ : Shape := ⟨0, ![]⟩
abbrev S12x256x128x1 : Shape := ⟨4, ![12, 256, 128, 1]⟩
abbrev S12x256x128x2 : Shape := ⟨4, ![12, 256, 128, 2]⟩
abbrev S12x256x128x512 : Shape := ⟨4, ![12, 256, 128, 512]⟩
abbrev S256x12 : Shape := ⟨2, ![256, 12]⟩
abbrev S1x16x512 : Shape := ⟨3, ![1, 16, 512]⟩
abbrev S1x16x128x512 : Shape := ⟨4, ![1, 16, 128, 512]⟩
abbrev S16x12 : Shape := ⟨2, ![16, 12]⟩
abbrev S16x512 : Shape := ⟨2, ![16, 512]⟩
abbrev S16x128x512 : Shape := ⟨3, ![16, 128, 512]⟩
abbrev S16 : Shape := ⟨1, ![16]⟩
abbrev S16x1x512 : Shape := ⟨3, ![16, 1, 512]⟩
abbrev S16x128 : Shape := ⟨2, ![16, 128]⟩
abbrev S16x1 : Shape := ⟨2, ![16, 1]⟩
abbrev S1x12 : Shape := ⟨2, ![1, 12]⟩
abbrev S256 : Shape := ⟨1, ![256]⟩
abbrev S12 : Shape := ⟨1, ![12]⟩

abbrev nBuf : Space → Nat
  | .hbm => 38
  | .vmem => 10
  | .smem => 0
  | _ => 0

abbrev bufTy : (tb : Table) → Fin (tcTables nBuf tb) → BufTy
  | .hbm, ⟨0, _⟩ => ⟨S13x256x512, .f32⟩
  | .hbm, ⟨1, _⟩ => ⟨S12x256x512, .f32⟩
  | .hbm, ⟨2, _⟩ => ⟨S12x256x128, .i32⟩
  | .hbm, ⟨3, _⟩ => ⟨S12x256x128, .i32⟩
  | .hbm, ⟨4, _⟩ => ⟨S1x256x512, .f32⟩
  | .hbm, ⟨5, _⟩ => ⟨S13x256x512, .f32⟩
  | .hbm, ⟨6, _⟩ => ⟨S_, .i32⟩
  | .hbm, ⟨7, _⟩ => ⟨S12x256x128, .i32⟩
  | .hbm, ⟨8, _⟩ => ⟨S12x256x128, .i1⟩
  | .hbm, ⟨9, _⟩ => ⟨S_, .i32⟩
  | .hbm, ⟨10, _⟩ => ⟨S12x256x128, .i32⟩
  | .hbm, ⟨11, _⟩ => ⟨S12x256x128, .i32⟩
  | .hbm, ⟨12, _⟩ => ⟨S12x256x128, .i32⟩
  | .hbm, ⟨13, _⟩ => ⟨S_, .i32⟩
  | .hbm, ⟨14, _⟩ => ⟨S12x256x128, .i32⟩
  | .hbm, ⟨15, _⟩ => ⟨S12x256x128, .i1⟩
  | .hbm, ⟨16, _⟩ => ⟨S_, .i32⟩
  | .hbm, ⟨17, _⟩ => ⟨S12x256x128, .i32⟩
  | .hbm, ⟨18, _⟩ => ⟨S12x256x128, .i32⟩
  | .hbm, ⟨19, _⟩ => ⟨S12x256x128, .i32⟩
  | .hbm, ⟨20, _⟩ => ⟨S12x256x128x1, .i32⟩
  | .hbm, ⟨21, _⟩ => ⟨S12x256x128x1, .i32⟩
  | .hbm, ⟨22, _⟩ => ⟨S12x256x128x2, .i32⟩
  | .hbm, ⟨23, _⟩ => ⟨S12x256x128x512, .f32⟩
  | .hbm, ⟨24, _⟩ => ⟨S12x256x512, .f32⟩
  | .hbm, ⟨25, _⟩ => ⟨S256x12, .f32⟩
  | .hbm, ⟨26, _⟩ => ⟨S256x12, .f32⟩
  | .hbm, ⟨27, _⟩ => ⟨S_, .f32⟩
  | .hbm, ⟨28, _⟩ => ⟨S256, .f32⟩
  | .hbm, ⟨29, _⟩ => ⟨S_, .f32⟩
  | .hbm, ⟨30, _⟩ => ⟨S256, .f32⟩
  | .hbm, ⟨31, _⟩ => ⟨S256, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S12, .f32⟩
  | .local _ .vmem, ⟨0, _⟩ => ⟨S1x16x512, .f32⟩
  | .local _ .vmem, ⟨1, _⟩ => ⟨S1x16x512, .f32⟩
  | .local _ .vmem, ⟨2, _⟩ => ⟨S1x16x512, .f32⟩
  | .local _ .vmem, ⟨3, _⟩ => ⟨S1x16x512, .f32⟩
  | .local _ .vmem, ⟨4, _⟩ => ⟨S1x16x128x512, .f32⟩
  | .local _ .vmem, ⟨5, _⟩ => ⟨S1x16x128x512, .f32⟩
  | .local _ .vmem, ⟨6, _⟩ => ⟨S16x12, .f32⟩
  | .local _ .vmem, ⟨7, _⟩ => ⟨S16x12, .f32⟩
  | .local _ .vmem, ⟨8, _⟩ => ⟨S16x12, .f32⟩
  | .local _ .vmem, ⟨9, _⟩ => ⟨S16x12, .f32⟩
  | _, _ => ⟨S13x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_cst : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 12], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x12 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x12 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S13x256x512_S1x256x512_0_0_0 : S13x256x512.Slices ![0, 0, 0] S1x256x512
  concatenates_S1x256x512_S12x256x512_S13x256x512_d0 : Shape.Concatenates [S1x256x512, S12x256x512] S13x256x512 0
  bcast_S_S12x256x128 : S_.BroadcastsInDim S12x256x128 (![] : Fin 0 → Fin S12x256x128.rank)
  bcast_S12x256x128_S12x256x128x1_0_1_2 : S12x256x128.BroadcastsInDim S12x256x128x1 (![0, 1, 2] : Fin 3 → Fin S12x256x128x1.rank)
  concatenates_S12x256x128x1_S12x256x128x1_S12x256x128x2_d3 : Shape.Concatenates [S12x256x128x1, S12x256x128x1] S12x256x128x2 3
  slices_S13x256x512_S12x256x512_1_0_0 : S13x256x512.Slices ![1, 0, 0] S12x256x512
  inb_S16x12_S16x12_0_0 : ∀ a, (![0, 0] : Fin 2 → Nat) a + S16x12.size a ≤ S16x12.size a
  h_S16x12 : 0 < S16x12.numel
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  inb_S1x16x128x512_S1x16x128x512_0_0_0_0 : ∀ a, (![0, 0, 0, 0] : Fin 4 → Nat) a + S1x16x128x512.size a ≤ S1x16x128x512.size a
  h_S1x16x128x512 : 0 < S1x16x128x512.numel
  shapeCasts_S1x16x128x512_S16x128x512 : S1x16x128x512.ShapeCasts S16x128x512
  reduces_S16x512_S16 : S16x512.Reduces [1] S16
  shapeCasts_S16x512_S16x1x512 : S16x512.ShapeCasts S16x1x512
  broadcasts_S16x1x512_S16x128x512 : S16x1x512.Broadcasts S16x128x512
  reduces_S16x128x512_S16x128 : S16x128x512.Reduces [2] S16x128
  reduces_S16x128_S16 : S16x128.Reduces [1] S16
  shapeCasts_S16_S16x1 : S16.ShapeCasts S16x1
  broadcasts_S16x1_S16x128 : S16x1.Broadcasts S16x128
  natLt_1_32 : 1 < 32
  iota_S1x12_d1_w32 : S1x12.Iotas .tc 32 [1]
  shapeCasts_S16x12_S16x12 : S16x12.ShapeCasts S16x12
  broadcasts_S16x1_S16x12 : S16x1.Broadcasts S16x12
  broadcasts_S1x12_S16x12 : S1x12.Broadcasts S16x12
  reducesTo_S256x12_S256_d1 : S256x12.ReducesTo [1] S256
  h_S_ : 0 < S_.numel
  bcast_S_S256 : S_.BroadcastsInDim S256 (![] : Fin 0 → Fin S256.rank)
  reducesTo_S256_S_d0 : S256.ReducesTo [0] S_
  reducesTo_S256x12_S12_d0 : S256x12.ReducesTo [0] S12
  gather_S13x256x512_S12x256x128x2_S12x256x128x512_3_01_n_n_01_3_11512_wf : GatherDims.WF S13x256x512 S12x256x128x2 S12x256x128x512 [3] [0, 1] [] [0, 1] [] 3 ![1, 1, 512]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x512.size a ≤ S12x256x512.size a
  hwx0_0 : ∀ i : grid0.Coords, EltTy.bits .f32 = 32 ∨ (Rect.block (s := S12x256x512) S1x16x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x512.size a ≤ S12x256x512.size a
  hwx0_1 : ∀ i : grid0.Coords, EltTy.bits .f32 = 32 ∨ (Rect.block (s := S12x256x512) S1x16x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x128x512.size a ≤ S12x256x128x512.size a
  hwx0_2 : ∀ i : grid0.Coords, EltTy.bits .f32 = 32 ∨ (Rect.block (s := S12x256x128x512) S1x16x128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x12.size a ≤ S256x12.size a
  hwx0_3 : ∀ i : grid0.Coords, EltTy.bits .f32 = 32 ∨ (Rect.block (s := S256x12) S16x12.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x12.size a ≤ S256x12.size a
  hwx0_4 : ∀ i : grid0.Coords, EltTy.bits .f32 = 32 ∨ (Rect.block (s := S256x12) S16x12.size (cc0_transform_4 i) (hinb0_4 i)).WholeWords (EltTy.packing .f32)

variable [Facts₀]

def gather_S13x256x512_S12x256x128x2_S12x256x128x512_3_01_n_n_01_3_11512 : GatherDims S13x256x512 S12x256x128x2 S12x256x128x512 where
  offsetDims := [3]
  collapsedSliceDims := [0, 1]
  operandBatchingDims := []
  startIndicesBatchingDims := []
  startIndexMap := [0, 1]
  indexVectorDim := 3
  sliceSizes := ![1, 1, 512]
  wf := gather_S13x256x512_S12x256x128x2_S12x256x128x512_3_01_n_n_01_3_11512_wf

abbrev win0_0 : Pipeline.Window sig grid0 :=
  Pipeline.Window.ofSpec (Memref.whole main_v16) S1x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x16x128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17_0) S16x12.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17_1) S16x12.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S13x256x512 : Shape := ⟨3, ![13, 256, 512]⟩
abbrev S12x256x512 : Shape := ⟨3, ![12, 256, 512]⟩
abbrev S12x256x128 : Shape := ⟨3, ![12, 256, 128]⟩
abbrev S1x256x512 : Shape := ⟨3, ![1, 256, 512]⟩
abbrev S_ : Shape := ⟨0, ![]⟩
abbrev S12x256x128x1 : Shape := ⟨4, ![12, 256, 128, 1]⟩
abbrev S12x256x128x2 : Shape := ⟨4, ![12, 256, 128, 2]⟩
abbrev S12x256x128x512 : Shape := ⟨4, ![12, 256, 128, 512]⟩
abbrev S12x256 : Shape := ⟨2, ![12, 256]⟩
abbrev S12x256x1x512 : Shape := ⟨4, ![12, 256, 1, 512]⟩
abbrev S256 : Shape := ⟨1, ![256]⟩
abbrev S12x256x1 : Shape := ⟨3, ![12, 256, 1]⟩
abbrev S12 : Shape := ⟨1, ![12]⟩

abbrev nBuf : Space → Nat
  | .hbm => 57
  | .vmem => 0
  | .smem => 0
  | _ => 0

abbrev bufTy : (tb : Table) → Fin (tcTables nBuf tb) → BufTy
  | .hbm, ⟨0, _⟩ => ⟨S13x256x512, .f32⟩
  | .hbm, ⟨1, _⟩ => ⟨S12x256x512, .f32⟩
  | .hbm, ⟨2, _⟩ => ⟨S12x256x128, .i32⟩
  | .hbm, ⟨3, _⟩ => ⟨S12x256x128, .i32⟩
  | .hbm, ⟨4, _⟩ => ⟨S1x256x512, .f32⟩
  | .hbm, ⟨5, _⟩ => ⟨S13x256x512, .f32⟩
  | .hbm, ⟨6, _⟩ => ⟨S_, .i32⟩
  | .hbm, ⟨7, _⟩ => ⟨S12x256x128, .i32⟩
  | .hbm, ⟨8, _⟩ => ⟨S12x256x128, .i1⟩
  | .hbm, ⟨9, _⟩ => ⟨S_, .i32⟩
  | .hbm, ⟨10, _⟩ => ⟨S12x256x128, .i32⟩
  | .hbm, ⟨11, _⟩ => ⟨S12x256x128, .i32⟩
  | .hbm, ⟨12, _⟩ => ⟨S12x256x128, .i32⟩
  | .hbm, ⟨13, _⟩ => ⟨S_, .i32⟩
  | .hbm, ⟨14, _⟩ => ⟨S12x256x128, .i32⟩
  | .hbm, ⟨15, _⟩ => ⟨S12x256x128, .i1⟩
  | .hbm, ⟨16, _⟩ => ⟨S_, .i32⟩
  | .hbm, ⟨17, _⟩ => ⟨S12x256x128, .i32⟩
  | .hbm, ⟨18, _⟩ => ⟨S12x256x128, .i32⟩
  | .hbm, ⟨19, _⟩ => ⟨S12x256x128, .i32⟩
  | .hbm, ⟨20, _⟩ => ⟨S12x256x128x1, .i32⟩
  | .hbm, ⟨21, _⟩ => ⟨S12x256x128x1, .i32⟩
  | .hbm, ⟨22, _⟩ => ⟨S12x256x128x2, .i32⟩
  | .hbm, ⟨23, _⟩ => ⟨S12x256x128x512, .f32⟩
  | .hbm, ⟨24, _⟩ => ⟨S12x256x512, .f32⟩
  | .hbm, ⟨25, _⟩ => ⟨S12x256x512, .f32⟩
  | .hbm, ⟨26, _⟩ => ⟨S12x256x512, .f32⟩
  | .hbm, ⟨27, _⟩ => ⟨S_, .f32⟩
  | .hbm, ⟨28, _⟩ => ⟨S12x256, .f32⟩
  | .hbm, ⟨29, _⟩ => ⟨S12x256x1x512, .f32⟩
  | .hbm, ⟨30, _⟩ => ⟨S12x256x128x512, .f32⟩
  | .hbm, ⟨31, _⟩ => ⟨S12x256x128x512, .f32⟩
  | .hbm, ⟨32, _⟩ => ⟨S12x256x128x512, .f32⟩
  | .hbm, ⟨33, _⟩ => ⟨S_, .f32⟩
  | .hbm, ⟨34, _⟩ => ⟨S12x256x128, .f32⟩
  | .hbm, ⟨35, _⟩ => ⟨S_, .f32⟩
  | .hbm, ⟨36, _⟩ => ⟨S12x256, .f32⟩
  | .hbm, ⟨37, _⟩ => ⟨S12x256, .f32⟩
  | .hbm, ⟨38, _⟩ => ⟨S12x256, .f32⟩
  | .hbm, ⟨39, _⟩ => ⟨S12x256, .f32⟩
  | .hbm, ⟨40, _⟩ => ⟨S_, .f32⟩
  | .hbm, ⟨41, _⟩ => ⟨S256, .f32⟩
  | .hbm, ⟨42, _⟩ => ⟨S_, .f32⟩
  | .hbm, ⟨43, _⟩ => ⟨S256, .f32⟩
  | .hbm, ⟨44, _⟩ => ⟨S256, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S12x256x1, .f32⟩
  | .hbm, ⟨50, _⟩ => ⟨S12x256x128, .f32⟩
  | .hbm, ⟨51, _⟩ => ⟨S12x256x128, .i1⟩
  | .hbm, ⟨52, _⟩ => ⟨S_, .i1⟩
  | .hbm, ⟨53, _⟩ => ⟨S12x256, .i1⟩
  | .hbm, ⟨54, _⟩ => ⟨S12x256, .f32⟩
  | .hbm, ⟨55, _⟩ => ⟨S_, .f32⟩
  | .hbm, ⟨56, _⟩ => ⟨S12, .f32⟩
  | _, _ => ⟨S13x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩

abbrev nD : Nat := 1
abbrev τ : Topo := Topo.v7x

variable {F : FTy → Type} [FloatOps F]

class Facts₀ : Prop where
  slices_S13x256x512_S1x256x512_0_0_0 : S13x256x512.Slices ![0, 0, 0] S1x256x512
  concatenates_S1x256x512_S12x256x512_S13x256x512_d0 : Shape.Concatenates [S1x256x512, S12x256x512] S13x256x512 0
  bcast_S_S12x256x128 : S_.BroadcastsInDim S12x256x128 (![] : Fin 0 → Fin S12x256x128.rank)
  bcast_S12x256x128_S12x256x128x1_0_1_2 : S12x256x128.BroadcastsInDim S12x256x128x1 (![0, 1, 2] : Fin 3 → Fin S12x256x128x1.rank)
  concatenates_S12x256x128x1_S12x256x128x1_S12x256x128x2_d3 : Shape.Concatenates [S12x256x128x1, S12x256x128x1] S12x256x128x2 3
  slices_S13x256x512_S12x256x512_1_0_0 : S13x256x512.Slices ![1, 0, 0] S12x256x512
  reducesTo_S12x256x512_S12x256_d2 : S12x256x512.ReducesTo [2] S12x256
  h_S_ : 0 < S_.numel
  bcast_S12x256x512_S12x256x1x512_0_1_3 : S12x256x512.BroadcastsInDim S12x256x1x512 (![0, 1, 3] : Fin 3 → Fin S12x256x1x512.rank)
  bcast_S12x256x1x512_S12x256x128x512_0_1_2_3 : S12x256x1x512.BroadcastsInDim S12x256x128x512 (![0, 1, 2, 3] : Fin 4 → Fin S12x256x128x512.rank)
  reducesTo_S12x256x128x512_S12x256x128_d3 : S12x256x128x512.ReducesTo [3] S12x256x128
  reducesTo_S12x256x128_S12x256_d2 : S12x256x128.ReducesTo [2] S12x256
  reducesTo_S12x256_S256_d0 : S12x256.ReducesTo [0] S256
  bcast_S_S256 : S_.BroadcastsInDim S256 (![] : Fin 0 → Fin S256.rank)
  reducesTo_S256_S_d0 : S256.ReducesTo [0] S_
  bcast_S12x256_S12x256x1_0_1 : S12x256.BroadcastsInDim S12x256x1 (![0, 1] : Fin 2 → Fin S12x256x1.rank)
  bcast_S12x256x1_S12x256x128_0_1_2 : S12x256x1.BroadcastsInDim S12x256x128 (![0, 1, 2] : Fin 3 → Fin S12x256x128.rank)
  reducesTo_S12x256_S12_d1 : S12x256.ReducesTo [1] S12
  gather_S13x256x512_S12x256x128x2_S12x256x128x512_3_01_n_n_01_3_11512_wf : GatherDims.WF S13x256x512 S12x256x128x2 S12x256x128x512 [3] [0, 1] [] [0, 1] [] 3 ![1, 1, 512]

variable [Facts₀]

def gather_S13x256x512_S12x256x128x2_S12x256x128x512_3_01_n_n_01_3_11512 : GatherDims S13x256x512 S12x256x128x2 S12x256x128x512 where
  offsetDims := [3]
  collapsedSliceDims := [0, 1]
  operandBatchingDims := []
  startIndicesBatchingDims := []
  startIndexMap := [0, 1]
  indexVectorDim := 3
  sliceSizes := ![1, 1, 512]
  wf := gather_S13x256x512_S12x256x128x2_S12x256x128x512_3_01_n_n_01_3_11512_wf

class Facts : Prop extends Facts₀ where

variable [Facts]
-- ==== Proof.Spec.lean ====
/-
  The mathematics both programs compute, index by index over the extended reals.

  For one (step t, batch row r) take the prediction row p, the positive row q (both of length 512) and the
  128 negative rows N n.  The positive score is  S⁺ = ∑_d exp (p_d · q_d),  the n-th negative score
  S⁻_n = ∑_d exp (p_d · N n d).  The step's log-ratio is  log (S⁺ / (S⁺ + ∑_n S⁻_n))  and the step counts as
  correct (1, else 0) when S⁺ exceeds every S⁻_n.  The loss is the mean over rows of the mean over steps
  (divided by 1548 and by 256), the correct count of step t the sum over rows.

  Also here: the small facts about one-bit words, 0/1 indicators and masked accumulation that join the
  two programs' ways of writing these quantities.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- Arrays of predictions / positives, and of gathered negatives, as extended reals. -/
abbrev A3 := (⟨3, ![12, 256, 512]⟩ : Shape).Idx → EReal
abbrev A4 := (⟨4, ![12, 256, 128, 512]⟩ : Shape).Idx → EReal

/-! ## One row -/

/-- ∑_d exp (p_d · q_d). -/
def rowScore (p q : Fin 512 → EReal) : EReal := ∑ d : Fin 512, Ideal.exp (p d * q d)

/-- log (S⁺ / (S⁺ + ∑_n S⁻_n)). -/
def rowStep (p q : Fin 512 → EReal) (N : Fin 128 → Fin 512 → EReal) : EReal :=
  Ideal.log (Ideal.div (rowScore p q) (rowScore p q + ∑ n : Fin 128, rowScore p (N n)))

/-- 1 when the positive score exceeds every negative score, else 0. -/
def rowCorrect (p q : Fin 512 → EReal) (N : Fin 128 → Fin 512 → EReal) : EReal :=
  if ∀ n : Fin 128, rowScore p (N n) < rowScore p q then 1 else 0

/-! ## The arrays -/

def stepAt (P Q : A3) (N : A4) (t : Fin 12) (r : Fin 256) : EReal :=
  rowStep (fun d => P (ix3 t r d)) (fun d => Q (ix3 t r d)) (fun n d => N (ix4 t r n d))

def correctAt (P Q : A3) (N : A4) (t : Fin 12) (r : Fin 256) : EReal :=
  rowCorrect (fun d => P (ix3 t r d)) (fun d => Q (ix3 t r d)) (fun n d => N (ix4 t r n d))

/-- The kernel's first output array [256, 12]: entry (r, t) is step t's log-ratio of row r. -/
def stepArr (P Q : A3) (N : A4) : (⟨2, ![256, 12]⟩ : Shape).Idx → EReal := fun j => stepAt P Q N (j 1) (j 0)
/-- The kernel's second output array [256, 12]: entry (r, t) is step t's correctness of row r. -/
def correctArr (P Q : A3) (N : A4) : (⟨2, ![256, 12]⟩ : Shape).Idx → EReal := fun j => correctAt P Q N (j 1) (j 0)

/-- The loss: rows' means of the steps' log-ratios (the two divisors 1548 and 256 kept as the words both programs spell). -/
def loss (P Q : A3) (N : A4) : EReal :=
  Ideal.div (Ideal.ofBits .f32 0x00000000#32 + ∑ r : Fin 256,
      Ideal.div (Ideal.ofBits .f32 0x00000000#32 + ∑ t : Fin 12, stepAt P Q N t r) (Ideal.ofBits .f32 0x44C18000#32))
    (Ideal.ofBits .f32 0x43800000#32)

/-- How many rows step t gets right. -/
def correctCount (P Q : A3) (N : A4) (t : Fin 12) : EReal :=
  Ideal.ofBits .f32 0x00000000#32 + ∑ r : Fin 256, correctAt P Q N t r

/-! ## Sums over a rank-1 index -/

/-- A rank-1 index is its one coordinate. -/
def idx1Equiv (n : Nat) : (⟨1, ![n]⟩ : Shape).Idx ≃ Fin n where
  toFun j := j 0
  invFun r := ix1 r
  left_inv j := (eq_ix1 j).symm
  right_inv _ := rfl

theorem sum_idx1 {n : Nat} (f : (⟨1, ![n]⟩ : Shape).Idx → EReal) : ∑ j, f j = ∑ r : Fin n, f (ix1 r) :=
  Fintype.sum_equiv (idx1Equiv n) f (fun r => f (ix1 r)) fun j => by rw [show ix1 ((idx1Equiv n) j) = j from (eq_ix1 j).symm]

/-! ## One-bit words and indicators -/

/-- A one-bit word as 0 or 1. -/
def ind (b : BitVec 1) : EReal := if b = 1#1 then 1 else 0

theorem bit_cases (b : BitVec 1) : b = 0#1 ∨ b = 1#1 := by
  rcases Nat.lt_or_ge b.toNat 1 with h | h
  · left; apply BitVec.eq_of_toNat_eq; simp; omega
  · right; apply BitVec.eq_of_toNat_eq; have := b.isLt; simp; omega

/-- Widened to 32 bits and read as a signed integer, a one-bit word is its indicator. -/
theorem sitofp_setWidth (b : BitVec 1) : (((b.setWidth 32).toInt : ℝ) : EReal) = ind b := by
  rcases bit_cases b with rfl | rfl <;> simp [ind]

/-- Read as an unsigned integer, a one-bit word is its indicator. -/
theorem uitofp_bit (b : BitVec 1) : (((b.toNat : ℕ) : ℝ) : EReal) = ind b := by
  rcases bit_cases b with rfl | rfl <;> simp [ind]

theorem ind_ofBool (p : Prop) [Decidable p] : ind (BitVec.ofBool (decide p)) = if p then 1 else 0 := by
  by_cases h : p <;> simp [ind, h]

/-- The word 0x43000000 denotes 128. -/
theorem ofBits_128 : Ideal.ofBits .f32 0x43000000#32 = ((128 : ℝ) : EReal) := by
  simp [Ideal.ofBits, Ideal.ieee, -EReal.coe_mul]; norm_num

/-- A sum of indicators over a set counts the members that satisfy the predicate. -/
theorem sum_ind (p : Fin 128 → Prop) [DecidablePred p] (s : Finset (Fin 128)) :
    ∑ n ∈ s, (if p n then (1 : EReal) else 0) = (((s.filter p).card : ℝ) : EReal) := by
  refine Finset.induction_on s (by simp) fun a s ha ih => ?_
  rw [Finset.sum_insert ha, ih, Finset.filter_insert]
  by_cases h : p a
  · rw [if_pos h, if_pos h, Finset.card_insert_of_notMem (by simp [ha])]
    push_cast
    exact add_comm _ _
  · rw [if_neg h, if_neg h, zero_add]

/-- A sum of 128 indicators reaches 128 exactly when every one of them is 1. -/
theorem count_ge_iff (p : Fin 128 → Prop) [DecidablePred p] :
    ((128 : ℝ) : EReal) ≤ ∑ n : Fin 128, (if p n then (1 : EReal) else 0) ↔ ∀ n, p n := by
  rw [sum_ind, EReal.coe_le_coe_iff]
  constructor
  · intro h n
    have hc : (Finset.univ.filter p).card ≤ 128 := by
      simpa using Finset.card_le_univ (Finset.univ.filter p)
    have h' : 128 ≤ (Finset.univ.filter p).card := by exact_mod_cast h
    have hu : Finset.univ.filter p = Finset.univ := by
      apply Finset.eq_univ_of_card; simp; omega
    have hn : n ∈ Finset.univ.filter p := by rw [hu]; exact Finset.mem_univ n
    exact (Finset.mem_filter.mp hn).2
  · intro h
    have hu : Finset.univ.filter p = Finset.univ := Finset.filter_true_of_mem fun n _ => h n
    rw [hu]; simp

/-! ## Masked accumulation -/

/-- Adding v·[j = t] for t = 0, 1, … onto 0 leaves v_j in column j once t has reached j (and 0 before):
    the step from t to t + 1. -/
theorem acc_step (v : ℕ → EReal) (j t : ℕ) (prev : EReal) (hprev : prev = if j ≤ t then v j else 0) :
    prev + v (t + 1) * (if j = t + 1 then (1 : EReal) else 0) = if j ≤ t + 1 then v j else 0 := by
  subst hprev
  by_cases h1 : j ≤ t
  · have : ¬ j = t + 1 := by omega
    rw [if_pos h1, if_neg this, mul_zero, add_zero, if_pos (by omega)]
  · by_cases h2 : j = t + 1
    · subst h2; rw [if_neg h1, if_pos rfl, mul_one, zero_add, if_pos (le_refl _)]
    · rw [if_neg h1, if_neg h2, mul_zero, add_zero, if_neg (by omega)]

/-- The start: 0 + v_0·[j = 0]. -/
theorem acc_zero (v : ℕ → EReal) (j : ℕ) :
    (0 : EReal) + v 0 * (if j = 0 then (1 : EReal) else 0) = if j ≤ 0 then v j else 0 := by
  by_cases h : j = 0
  · subst h; simp
  · rw [if_neg h, mul_zero, add_zero, if_neg (by omega)]

end Cert.Spec

end
-- ==== Proof.Blocks.lean ====
/-
  Which entries of the whole arrays a grid point's input blocks hold.

  The grid is 16 row blocks by 12 steps, the step running fastest: point t is step t mod 12 of row block
  t / 12, and its blocks hold rows 16·(t / 12) … 16·(t / 12) + 15 of that step's slab.
-/
import proofs.«136555_j58669253263549_1_alg».proof.Proof.Gen.KernelIdeal.Frame
import Idealize.ShloMosaic.Lib.Pipeline.Value
import Idealize.ShloMosaic.Lib.ValueIdx

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The three arrays the region reads, as it finds them. -/
abbrev predsArr (c : Dev nD) : Vec F S12x256x512 .f32 := V m c main_v16
abbrev posArr (c : Dev nD) : Vec F S12x256x512 .f32 := V m c main_arg1
abbrev negsArr (c : Dev nD) : Vec F S12x256x128x512 .f32 := V m c main_v15

/-- The three input blocks of a grid point. -/
abbrev blk0 (c : Dev nD) (t : Fin cfg0.N) : Vec F S1x16x512 .f32 := iblk m c 0 t
abbrev blk1 (c : Dev nD) (t : Fin cfg0.N) : Vec F S1x16x512 .f32 := iblk m c 1 t
abbrev blk2 (c : Dev nD) (t : Fin cfg0.N) : Vec F S1x16x128x512 .f32 := iblk m c 2 t

theorem N_val (t : Fin cfg0.N) : t.val < 192 := lt_of_lt_of_eq t.isLt (show cfg0.N = 192 from N_0)

/-- The step of a grid point. -/
def stepOf (t : Fin cfg0.N) : Fin 12 := ⟨t.val % 12, Nat.mod_lt _ (by decide)⟩
/-- The array row that row b of a grid point's blocks is. -/
def rowOf (t : Fin cfg0.N) (b : Fin 16) : Fin 256 := ⟨t.val / 12 * 16 + b.val, by have := N_val t; have := b.isLt; omega⟩

/-- The index maps, decided once over the grid. -/
theorem idx0 : ∀ t : Fin cfg0.N, win0_0.index t 0 = t.val % 12 ∧ win0_0.index t 1 = t.val / 12 ∧ win0_0.index t 2 = 0 :=
  (by decide +kernel : ∀ t : Fin grid0.N, win0_0.index t 0 = t.val % 12 ∧ win0_0.index t 1 = t.val / 12 ∧ win0_0.index t 2 = 0)
theorem idx1 : ∀ t : Fin cfg0.N, win0_1.index t 0 = t.val % 12 ∧ win0_1.index t 1 = t.val / 12 ∧ win0_1.index t 2 = 0 :=
  (by decide +kernel : ∀ t : Fin grid0.N, win0_1.index t 0 = t.val % 12 ∧ win0_1.index t 1 = t.val / 12 ∧ win0_1.index t 2 = 0)
theorem idx2 : ∀ t : Fin cfg0.N, win0_2.index t 0 = t.val % 12 ∧ win0_2.index t 1 = t.val / 12 ∧ win0_2.index t 2 = 0 ∧ win0_2.index t 3 = 0 :=
  (by decide +kernel : ∀ t : Fin grid0.N, win0_2.index t 0 = t.val % 12 ∧ win0_2.index t 1 = t.val / 12 ∧ win0_2.index t 2 = 0 ∧ win0_2.index t 3 = 0)
theorem idx3 : ∀ t : Fin cfg0.N, win0_3.index t 0 = t.val / 12 ∧ win0_3.index t 1 = 0 :=
  (by decide +kernel : ∀ t : Fin grid0.N, win0_3.index t 0 = t.val / 12 ∧ win0_3.index t 1 = 0)
theorem idx4 : ∀ t : Fin cfg0.N, win0_4.index t 0 = t.val / 12 ∧ win0_4.index t 1 = 0 :=
  (by decide +kernel : ∀ t : Fin grid0.N, win0_4.index t 0 = t.val / 12 ∧ win0_4.index t 1 = 0)

/-- The step coordinate the body sees at a grid point. -/
theorem coord1 : ∀ t : Fin cfg0.N, ((grid0.coords t) 1).val = t.val % 12 :=
  (by decide +kernel : ∀ t : Fin grid0.N, ((grid0.coords t) 1).val = t.val % 12)

/-- Row b, lane d of the prediction block is row (rowOf t b) of step (stepOf t) of the prediction array. -/
theorem blk0_apply (c : Dev nD) (t : Fin cfg0.N) (b : Fin 16) (d : Fin 512) :
    blk0 m c t (ix3 0 b d) = predsArr m c (ix3 (stepOf t) (rowOf t b) d) := by
  unfold blk0 iblk
  rw [View.read_apply]
  show V m c main_v16 _ = V m c main_v16 _
  refine congrArg (V m c main_v16) ?_
  funext a
  apply Fin.ext
  match a with
  | ⟨0, _⟩ => show win0_0.index t 0 * 1 + 1 * 0 = t.val % 12; rw [(idx0 t).1]; omega
  | ⟨1, _⟩ => show win0_0.index t 1 * 16 + 1 * b.val = t.val / 12 * 16 + b.val; rw [(idx0 t).2.1]; omega
  | ⟨2, _⟩ => show win0_0.index t 2 * 512 + 1 * d.val = d.val; rw [(idx0 t).2.2]; omega

theorem blk1_apply (c : Dev nD) (t : Fin cfg0.N) (b : Fin 16) (d : Fin 512) :
    blk1 m c t (ix3 0 b d) = posArr m c (ix3 (stepOf t) (rowOf t b) d) := by
  unfold blk1 iblk
  rw [View.read_apply]
  show V m c main_arg1 _ = V m c main_arg1 _
  refine congrArg (V m c main_arg1) ?_
  funext a
  apply Fin.ext
  match a with
  | ⟨0, _⟩ => show win0_1.index t 0 * 1 + 1 * 0 = t.val % 12; rw [(idx1 t).1]; omega
  | ⟨1, _⟩ => show win0_1.index t 1 * 16 + 1 * b.val = t.val / 12 * 16 + b.val; rw [(idx1 t).2.1]; omega
  | ⟨2, _⟩ => show win0_1.index t 2 * 512 + 1 * d.val = d.val; rw [(idx1 t).2.2]; omega

theorem blk2_apply (c : Dev nD) (t : Fin cfg0.N) (b : Fin 16) (n : Fin 128) (d : Fin 512) :
    blk2 m c t (ix4 0 b n d) = negsArr m c (ix4 (stepOf t) (rowOf t b) n d) := by
  unfold blk2 iblk
  rw [View.read_apply]
  show V m c main_v15 _ = V m c main_v15 _
  refine congrArg (V m c main_v15) ?_
  funext a
  apply Fin.ext
  match a with
  | ⟨0, _⟩ => show win0_2.index t 0 * 1 + 1 * 0 = t.val % 12; rw [(idx2 t).1]; omega
  | ⟨1, _⟩ => show win0_2.index t 1 * 16 + 1 * b.val = t.val / 12 * 16 + b.val; rw [(idx2 t).2.1]; omega
  | ⟨2, _⟩ => show win0_2.index t 2 * 128 + 1 * n.val = n.val; rw [(idx2 t).2.2.1]; omega
  | ⟨3, _⟩ => show win0_2.index t 3 * 512 + 1 * d.val = d.val; rw [(idx2 t).2.2.2]; omega

end Cert.KernelIdeal.Blocks

end
-- ==== Proof.Pieces.lean ====
/-
  What one run of the kernel body leaves in its two output blocks, as pure functions of what it loaded.

  At the first step of a row block (case A) the body clears both blocks, reads the cleared block back and adds
  its masked column onto it; at the later steps (case B) it adds onto what the step before left.
-/
import proofs.«136555_j58669253263549_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Later steps, first output: the running block plus the step's masked log-ratio column. -/
theorem out_B_3 (c : Dev nD) (i : grid0.Coords) (a2 : Memref sig .tc .vmem S1x16x512 .f32) (h2 : a2.IsWhole)
    (a3 : Memref sig .tc .vmem S1x16x512 .f32) (h3 : a3.IsWhole) (a4 : Memref sig .tc .vmem S1x16x128x512 .f32) (h4 : a4.IsWhole)
    (a5 : Memref sig .tc .vmem S16x12 .f32) (h5 : a5.IsWhole) (a6 : Memref sig .tc .vmem S16x12 .f32) (h6 : a6.IsWhole)
    (hc : ¬cond0_0 i) (x0 x1 : Vec F S1x16x512 .f32) (x2 : Vec F S1x16x128x512 .f32) (xo3 xo4 : Vec F S16x12 .f32) :
    out0_B_3 c i a2 h2 a3 h3 a4 h4 a5 h5 a6 h6 hc x0 x1 x2 xo3 xo4
      = k0_pay1 (k0_pay8 x0 x1 x2) (k0_pay10 (F := F) i) (k0_pay11 xo3) := by
  unfold out0_B_3
  rw [View.read_writes_eq_canon _ _ _ (cover0_B_3 c i a2 h2 a3 h3 a4 h4 a5 h5 a6 h6 hc x0 x1 x2 xo3 xo4)]
  unfold kernelRun0_B
  dsimp only
  sl_unfold_words
  rw [View.canon_unit_zero hz2]
  simp only [View.readAt_eq_ld, h2.read_unread, h3.read_unread, h4.read_unread, h5.read_unread, h6.read_unread,
    View.ld_unit_zero (S := S1x16x512) hz3, View.ld_unit_zero (S := S1x16x128x512) hz4, View.ld_unit_zero (S := S16x12) hz2]

/-- Later steps, second output: the running block plus the step's masked correctness column. -/
theorem out_B_4 (c : Dev nD) (i : grid0.Coords) (a2 : Memref sig .tc .vmem S1x16x512 .f32) (h2 : a2.IsWhole)
    (a3 : Memref sig .tc .vmem S1x16x512 .f32) (h3 : a3.IsWhole) (a4 : Memref sig .tc .vmem S1x16x128x512 .f32) (h4 : a4.IsWhole)
    (a5 : Memref sig .tc .vmem S16x12 .f32) (h5 : a5.IsWhole) (a6 : Memref sig .tc .vmem S16x12 .f32) (h6 : a6.IsWhole)
    (hc : ¬cond0_0 i) (x0 x1 : Vec F S1x16x512 .f32) (x2 : Vec F S1x16x128x512 .f32) (xo3 xo4 : Vec F S16x12 .f32) :
    out0_B_4 c i a2 h2 a3 h3 a4 h4 a5 h5 a6 h6 hc x0 x1 x2 xo3 xo4
      = k0_pay2 (k0_pay9 x0 x1 x2) (k0_pay10 (F := F) i) xo4 := by
  unfold out0_B_4
  rw [View.read_writes_eq_canon _ _ _ (cover0_B_4 c i a2 h2 a3 h3 a4 h4 a5 h5 a6 h6 hc x0 x1 x2 xo3 xo4)]
  unfold kernelRun0_B
  dsimp only
  sl_unfold_words
  rw [View.canon_unit_zero hz2]
  simp only [View.readAt_eq_ld, h2.read_unread, h3.read_unread, h4.read_unread, h5.read_unread, h6.read_unread,
    View.ld_unit_zero (S := S1x16x512) hz3, View.ld_unit_zero (S := S1x16x128x512) hz4, View.ld_unit_zero (S := S16x12) hz2]

/-- First step, first output: the cleared block plus the step's masked log-ratio column. -/
theorem out_A_3 (c : Dev nD) (i : grid0.Coords) (a2 : Memref sig .tc .vmem S1x16x512 .f32) (h2 : a2.IsWhole)
    (a3 : Memref sig .tc .vmem S1x16x512 .f32) (h3 : a3.IsWhole) (a4 : Memref sig .tc .vmem S1x16x128x512 .f32) (h4 : a4.IsWhole)
    (a5 : Memref sig .tc .vmem S16x12 .f32) (h5 : a5.IsWhole) (a6 : Memref sig .tc .vmem S16x12 .f32) (h6 : a6.IsWhole)
    (hc : cond0_0 i) (x0 x1 : Vec F S1x16x512 .f32) (x2 : Vec F S1x16x128x512 .f32) :
    out0_A_3 c i a2 h2 a3 h3 a4 h4 a5 h5 a6 h6 hc x0 x1 x2
      = k0_pay1 (k0_pay8 x0 x1 x2) (k0_pay10 (F := F) i) (k0_pay11 (k0_pay3 (F := F))) := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_cons_unit_zero (S := S16x12) hz2]
  simp only [View.readAt_eq_ld, h2.read_unread, h3.read_unread, h4.read_unread, h5.read_unread, h6.read_unread,
    View.ld_unit_zero (S := S1x16x512) hz3, View.ld_unit_zero (S := S1x16x128x512) hz4, View.ld_unit_zero (S := S16x12) hz2, View.readCov_unit_zero (S := S16x12) _ hz2]

/-- First step, second output: the cleared block plus the step's masked correctness column. -/
theorem out_A_4 (c : Dev nD) (i : grid0.Coords) (a2 : Memref sig .tc .vmem S1x16x512 .f32) (h2 : a2.IsWhole)
    (a3 : Memref sig .tc .vmem S1x16x512 .f32) (h3 : a3.IsWhole) (a4 : Memref sig .tc .vmem S1x16x128x512 .f32) (h4 : a4.IsWhole)
    (a5 : Memref sig .tc .vmem S16x12 .f32) (h5 : a5.IsWhole) (a6 : Memref sig .tc .vmem S16x12 .f32) (h6 : a6.IsWhole)
    (hc : cond0_0 i) (x0 x1 : Vec F S1x16x512 .f32) (x2 : Vec F S1x16x128x512 .f32) :
    out0_A_4 c i a2 h2 a3 h3 a4 h4 a5 h5 a6 h6 hc x0 x1 x2
      = k0_pay2 (k0_pay9 x0 x1 x2) (k0_pay10 (F := F) i) (k0_pay4 (F := F)) := by
  unfold out0_A_4
  rw [View.read_writes_eq_canon _ _ _ (cover0_A_4 c i a2 h2 a3 h3 a4 h4 a5 h5 a6 h6 hc x0 x1 x2)]
  unfold kernelRun0_A
  dsimp only
  sl_unfold_words
  rw [View.canon_cons_unit_zero (S := S16x12) hz2]
  simp only [View.readAt_eq_ld, h2.read_unread, h3.read_unread, h4.read_unread, h5.read_unread, h6.read_unread,
    View.ld_unit_zero (S := S1x16x512) hz3, View.ld_unit_zero (S := S1x16x128x512) hz4, View.ld_unit_zero (S := S16x12) hz2, View.readCov_unit_zero (S := S16x12) _ hz2]

end Cert.KernelIdeal.Pieces

end
-- ==== Proof.Payload.lean ====
/-
  The body's arithmetic read at one entry, over the extended reals.

  Row b of the loaded blocks gives the row quantities of the specification; the step mask is the indicator of
  the point's step among the 12 columns; each stored block is the block read before plus column times mask.
-/
import proofs.«136555_j58669253263549_1_alg».proof.Proof.Gen.KernelIdeal.Skeleton
import proofs.«136555_j58669253263549_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Idealize.ShloMosaic Idealize.ShloMosaic.ValueIdx
open Cert.KernelIdeal Cert.KernelIdeal.Gen Cert.Spec

/-- Row b of a [1, 16, 512] block. -/
def row3 (x : Vec Ideal S1x16x512 .f32) (b : Fin 16) : Fin 512 → EReal := fun d => x (ix3 0 b d)
/-- Row b of a [1, 16, 128, 512] block: 128 rows of length 512. -/
def row4 (x : Vec Ideal S1x16x128x512 .f32) (b : Fin 16) : Fin 128 → Fin 512 → EReal := fun n d => x (ix4 0 b n d)

/-! ## Layout steps read at an index -/

/-- A length-16 column cast to [16, 1] and broadcast along m lanes reads the column at the row. -/
private theorem col_bcast_apply {m : Nat} (v : (⟨1, ![16]⟩ : Shape).Idx → EReal)
    (h1 : (⟨1, ![16]⟩ : Shape).ShapeCasts ⟨2, ![16, 1]⟩)
    (h2 : (⟨2, ![16, 1]⟩ : Shape).Broadcasts ⟨2, ![16, m]⟩) (b : Fin 16) (j : Fin m) :
    broadcastTo ⟨2, ![16, m]⟩ (shapeCast ⟨2, ![16, 1]⟩ v h1) h2 (ix2 b j) = v (ix1 b) := by
  refine (broadcastTo_apply _ h2 (ix2 b j) (ix2 b (0 : Fin 1)) fun ax => ?_).trans ?_
  · match ax with
    | ⟨0, _⟩ => rfl
    | ⟨1, _⟩ => rfl
  · refine shapeCast_apply v h1 _ _ ?_
    rw [Shape.rowMajor_val_one, Shape.rowMajor_val_two]
    show b.val = b.val * 1 + 0
    omega

/-- Two words made from numbers below 12 are equal exactly when the numbers are. -/
private theorem ofNat32_eq_iff {a c : Nat} (ha : a < 12) (hc : c < 12) :
    BitVec.ofNat 32 a = BitVec.ofNat 32 c ↔ a = c := by
  constructor
  · intro h
    have h' := congrArg BitVec.toNat h
    simp only [BitVec.toNat_ofNat] at h'
    omega
  · rintro rfl; rfl

/-- A [16, 512] block cast to [16, 1, 512] and broadcast over 128 rows reads, at (b, n, d), the block at (b, d). -/
private theorem row_bcast_apply (v : (⟨2, ![16, 512]⟩ : Shape).Idx → EReal)
    (h1 : (⟨2, ![16, 512]⟩ : Shape).ShapeCasts ⟨3, ![16, 1, 512]⟩)
    (h2 : (⟨3, ![16, 1, 512]⟩ : Shape).Broadcasts ⟨3, ![16, 128, 512]⟩) (b : Fin 16) (n : Fin 128) (d : Fin 512) :
    broadcastTo ⟨3, ![16, 128, 512]⟩ (shapeCast ⟨3, ![16, 1, 512]⟩ v h1) h2 (ix3 b n d) = v (ix2 b d) := by
  refine (broadcastTo_apply _ h2 (ix3 b n d) (ix3 b (0 : Fin 1) d) fun ax => ?_).trans ?_
  · match ax with
    | ⟨0, _⟩ => rfl
    | ⟨1, _⟩ => rfl
    | ⟨2, _⟩ => rfl
  · refine shapeCast_apply v h1 _ _ ?_
    rw [Shape.rowMajor_val_two, Shape.rowMajor_val_three]
    show b.val * 512 + d.val = (b.val * 1 + 0) * 512 + d.val
    omega

/-! ## The scores -/

/-- The positive score of row b: the lane sum of exp (prediction · positive). -/
private theorem pay6_apply (x0 x1 : Vec Ideal S1x16x512 .f32) (b : Fin 16) :
    k0_pay6 (F := Ideal) x0 x1 (ix1 b) = rowScore (row3 x0 b) (row3 x1 b) := by
  refine (Ideal.multiReduction_add_single _ _ reduces_S16x512_S16 (.inl rfl) rfl (ix1 b)).trans ?_
  show ∑ d : Fin 512, _ = ∑ d : Fin 512, _
  refine Finset.sum_congr rfl fun d _ => ?_
  have hl : reduces_S16x512_S16.lift (ix1 b) d = ix2 b d := by
    funext a
    match a with
    | ⟨0, _⟩ => exact Fin.ext rfl
    | ⟨1, _⟩ => exact Fin.ext rfl
  rw [hl]
  show Ideal.exp (shapeCast S16x512 x0 shapeCasts_S1x16x512_S16x512 (ix2 b d)
      * shapeCast S16x512 x1 shapeCasts_S1x16x512_S16x512 (ix2 b d)) = Ideal.exp (row3 x0 b d * row3 x1 b d)
  rw [shapeCast_1ab_ab_apply, shapeCast_1ab_ab_apply]
  rfl

/-- The n-th negative score of row b: the lane sum of exp (prediction · n-th negative). -/
private theorem pay7_apply (x0 : Vec Ideal S1x16x512 .f32) (x2 : Vec Ideal S1x16x128x512 .f32) (b : Fin 16) (n : Fin 128) :
    k0_pay7 (F := Ideal) x0 x2 (ix2 b n) = rowScore (row3 x0 b) (row4 x2 b n) := by
  refine (Ideal.multiReduction_add_single _ _ reduces_S16x128x512_S16x128 (.inl rfl) rfl (ix2 b n)).trans ?_
  show ∑ d : Fin 512, _ = ∑ d : Fin 512, _
  refine Finset.sum_congr rfl fun d _ => ?_
  have hl : reduces_S16x128x512_S16x128.lift (ix2 b n) d = ix3 b n d := by
    funext a
    match a with
    | ⟨0, _⟩ => exact Fin.ext rfl
    | ⟨1, _⟩ => exact Fin.ext rfl
    | ⟨2, _⟩ => exact Fin.ext rfl
  rw [hl]
  show Ideal.exp (broadcastTo S16x128x512
        (shapeCast S16x1x512 (shapeCast S16x512 x0 shapeCasts_S1x16x512_S16x512) shapeCasts_S16x512_S16x1x512)
        broadcasts_S16x1x512_S16x128x512 (ix3 b n d)
      * shapeCast S16x128x512 x2 shapeCasts_S1x16x128x512_S16x128x512 (ix3 b n d))
    = Ideal.exp (row3 x0 b d * row4 x2 b n d)
  rw [row_bcast_apply, shapeCast_1ab_ab_apply, shapeCast_1abc_abc_apply]
  rfl

/-- The sum of the 128 negative scores of row b. -/
private theorem negsum_apply (x0 : Vec Ideal S1x16x512 .f32) (x2 : Vec Ideal S1x16x128x512 .f32) (b : Fin 16) :
    multiReduction .add [1] S16 (k0_pay7 (F := Ideal) x0 x2) 0x00000000#32 reduces_S16x128_S16 (.inl rfl) rfl (ix1 b)
      = ∑ n : Fin 128, rowScore (row3 x0 b) (row4 x2 b n) := by
  refine (Ideal.multiReduction_add_single _ _ reduces_S16x128_S16 (.inl rfl) rfl (ix1 b)).trans ?_
  show ∑ n : Fin 128, _ = ∑ n : Fin 128, _
  refine Finset.sum_congr rfl fun n _ => ?_
  have hl : reduces_S16x128_S16.lift (ix1 b) n = ix2 b n := by
    funext a
    match a with
    | ⟨0, _⟩ => exact Fin.ext rfl
    | ⟨1, _⟩ => exact Fin.ext rfl
  rw [hl, pay7_apply]

/-- The log-ratio column at row b. -/
theorem pay8_apply (x0 x1 : Vec Ideal S1x16x512 .f32) (x2 : Vec Ideal S1x16x128x512 .f32) (b : Fin 16) :
    k0_pay8 (F := Ideal) x0 x1 x2 (ix1 b) = rowStep (row3 x0 b) (row3 x1 b) (row4 x2 b) := by
  show Ideal.log (Ideal.div (k0_pay6 (F := Ideal) x0 x1 (ix1 b))
      (k0_pay6 (F := Ideal) x0 x1 (ix1 b)
        + multiReduction .add [1] S16 (k0_pay7 (F := Ideal) x0 x2) 0x00000000#32 reduces_S16x128_S16 (.inl rfl) rfl (ix1 b))) = _
  rw [pay6_apply, negsum_apply]
  rfl

/-- How many of row b's negative scores the positive score exceeds: the lane sum of the 0/1 comparisons. -/
private theorem count_apply (x0 x1 : Vec Ideal S1x16x512 .f32) (x2 : Vec Ideal S1x16x128x512 .f32) (b : Fin 16) :
    multiReduction .add [1] S16
        (sitofp (F := Ideal) .f32 (extui 32 (cmpf .ogt
          (broadcastTo S16x128 (shapeCast S16x1 (k0_pay6 (F := Ideal) x0 x1) shapeCasts_S16_S16x1) broadcasts_S16x1_S16x128)
          (k0_pay7 (F := Ideal) x0 x2)) natLt_1_32))
        0x00000000#32 reduces_S16x128_S16 (.inl rfl) rfl (ix1 b)
      = ∑ n : Fin 128, (if rowScore (row3 x0 b) (row4 x2 b n) < rowScore (row3 x0 b) (row3 x1 b) then (1 : EReal) else 0) := by
  refine (Ideal.multiReduction_add_single _ _ reduces_S16x128_S16 (.inl rfl) rfl (ix1 b)).trans ?_
  show ∑ n : Fin 128, _ = ∑ n : Fin 128, _
  refine Finset.sum_congr rfl fun n _ => ?_
  have hl : reduces_S16x128_S16.lift (ix1 b) n = ix2 b n := by
    funext a
    match a with
    | ⟨0, _⟩ => exact Fin.ext rfl
    | ⟨1, _⟩ => exact Fin.ext rfl
  rw [hl]
  show ((((Ideal.cmp .ogt
      (broadcastTo S16x128 (shapeCast S16x1 (k0_pay6 (F := Ideal) x0 x1) shapeCasts_S16_S16x1) broadcasts_S16x1_S16x128 (ix2 b n))
      (k0_pay7 (F := Ideal) x0 x2 (ix2 b n))).setWidth 32).toInt : ℝ) : EReal) = _
  rw [sitofp_setWidth, col_bcast_apply, pay6_apply, pay7_apply]
  exact ind_ofBool _

/-- The correctness column at row b. -/
theorem pay9_apply (x0 x1 : Vec Ideal S1x16x512 .f32) (x2 : Vec Ideal S1x16x128x512 .f32) (b : Fin 16) :
    k0_pay9 (F := Ideal) x0 x1 x2 (ix1 b) = rowCorrect (row3 x0 b) (row3 x1 b) (row4 x2 b) := by
  show ((((Ideal.cmp .oge
      (multiReduction .add [1] S16
        (sitofp (F := Ideal) .f32 (extui 32 (cmpf .ogt
          (broadcastTo S16x128 (shapeCast S16x1 (k0_pay6 (F := Ideal) x0 x1) shapeCasts_S16_S16x1) broadcasts_S16x1_S16x128)
          (k0_pay7 (F := Ideal) x0 x2)) natLt_1_32))
        0x00000000#32 reduces_S16x128_S16 (.inl rfl) rfl (ix1 b))
      (Ideal.ofBits .f32 0x43000000#32)).setWidth 32).toInt : ℝ) : EReal) = _
  rw [sitofp_setWidth, count_apply, ofBits_128]
  refine (ind_ofBool _).trans ?_
  unfold rowCorrect
  by_cases h : ∀ n : Fin 128, rowScore (row3 x0 b) (row4 x2 b n) < rowScore (row3 x0 b) (row3 x1 b)
  · rw [if_pos ((count_ge_iff _).mpr h), if_pos h]
  · rw [if_neg fun hc => h ((count_ge_iff _).mp hc), if_neg h]

/-- The step mask: 1 in the column of the point's step, 0 elsewhere. -/
theorem pay10_apply (i : grid0.Coords) (j : Fin 12) :
    k0_pay10 (F := Ideal) i (ix2 0 j) = if j.val = (i 1).val then 1 else 0 := by
  have hi : (i 1).val < 12 := (i 1).isLt
  show ((((IntOp.cmpi .eq (iota .tc S1x12 32 [1] iota_S1x12_d1_w32 (ix2 0 j))
      (BitVec.ofNat 32 (i 1).val)).setWidth 32).toInt : ℝ) : EReal) = _
  rw [sitofp_setWidth, iota_single_apply]
  show ind (BitVec.ofBool (decide (BitVec.ofNat 32 j.val = BitVec.ofNat 32 (i 1).val))) = _
  rw [ind_ofBool]
  exact if_congr (ofNat32_eq_iff j.isLt hi) rfl rfl

/-- The stored first block: what was read plus column times mask. -/
theorem pay1_apply (v20 : FVec Ideal S16 .f32) (v35 : FVec Ideal S1x12 .f32) (v37 : FVec Ideal S16x12 .f32) (b : Fin 16) (j : Fin 12) :
    k0_pay1 v20 v35 v37 (ix2 b j) = v37 (ix2 b j) + v20 (ix1 b) * v35 (ix2 0 j) := by
  show v37 (ix2 b j)
      + broadcastTo S16x12 (shapeCast S16x1 v20 shapeCasts_S16_S16x1) broadcasts_S16x1_S16x12 (ix2 b j)
        * broadcastTo S16x12 v35 broadcasts_S1x12_S16x12 (ix2 b j) = _
  rw [col_bcast_apply, broadcastTo_1b_ab_apply]

/-- The stored second block: what was read plus column times mask. -/
theorem pay2_apply (v30 : FVec Ideal S16 .f32) (v35 : FVec Ideal S1x12 .f32) (v44 : Vec Ideal S16x12 .f32) (b : Fin 16) (j : Fin 12) :
    k0_pay2 v30 v35 v44 (ix2 b j) = v44 (ix2 b j) + v30 (ix1 b) * v35 (ix2 0 j) := by
  show shapeCast S16x12 v44 shapeCasts_S16x12_S16x12 (ix2 b j)
      + broadcastTo S16x12 (shapeCast S16x1 v30 shapeCasts_S16_S16x1) broadcasts_S16x1_S16x12 (ix2 b j)
        * broadcastTo S16x12 v35 broadcasts_S1x12_S16x12 (ix2 b j) = _
  rw [shapeCast_self, col_bcast_apply, broadcastTo_1b_ab_apply]

/-- A cast of a block to its own shape changes nothing. -/
theorem pay11_eq (v36 : Vec Ideal S16x12 .f32) : k0_pay11 v36 = v36 :=
  shapeCast_self v36 _

/-- The cleared blocks hold 0. -/
theorem pay3_apply (y : S16x12.Idx) : k0_pay3 (F := Ideal) y = 0 :=
  Ideal.ofBits_zero_f32
theorem pay4_apply (y : S16x12.Idx) : k0_pay4 (F := Ideal) y = 0 :=
  Ideal.ofBits_zero_f32

end Cert.KernelIdeal.Payload

end
-- ==== Proof.Final.lean ====
/-
  What the kernel's two output arrays hold after the run.

  Fix a row block and a row b of it. Going through the 12 steps k = 0 … 11 of that row block, the body adds
  (value of step k) · [column = k] onto the block, starting from the cleared block at k = 0. So after step k
  column j holds step j's value when j ≤ k and 0 otherwise; after step 11, when the block is written back,
  column j holds step j's value for every j. The 16 row blocks tile the array.
-/
import proofs.«136555_j58669253263549_1_alg».proof.Proof.Gen.KernelIdeal.Frame
import proofs.«136555_j58669253263549_1_alg».proof.Proof.Spec
import proofs.«136555_j58669253263549_1_alg».proof.Proof.Pieces
import proofs.«136555_j58669253263549_1_alg».proof.Proof.Blocks
import proofs.«136555_j58669253263549_1_alg».proof.Proof.Payload
import Idealize.ShloMosaic.Lib.Pipeline.Value
import Idealize.ShloMosaic.Lib.ValueIdx

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.Spec Cert.KernelIdeal.Blocks Cert.KernelIdeal.Pieces Cert.KernelIdeal.Payload

variable (m : (ℓ : Loc nD τ sig) → Buf (Elt Ideal) ℓ)

/-! ## The accumulation, in one column -/

/-- One step of the masked accumulation: if before step k column j holds s j for j < k and 0 otherwise, then
    adding s k · [j = k] leaves s j for j ≤ k and 0 otherwise. Only x · 0 = 0, x · 1 = x and 0 + x = x are used. -/
theorem acc_closed (s : Fin 12 → EReal) (k : ℕ) (hk : k < 12) (j : Fin 12) (prev : EReal)
    (hprev : prev = if k = 0 then 0 else (if j.val ≤ k - 1 then s j else 0)) :
    prev + s ⟨k, hk⟩ * (if j.val = k then (1 : EReal) else 0) = if j.val ≤ k then s j else 0 := by
  subst hprev
  by_cases hj : j.val = k
  · have hjk : j = ⟨k, hk⟩ := Fin.ext hj
    subst hjk
    rw [if_pos rfl, mul_one, if_pos (le_refl _)]
    by_cases h0 : k = 0
    · rw [if_pos h0, zero_add]
    · rw [if_neg h0, if_neg (by dsimp only; omega), zero_add]
  · rw [if_neg hj, mul_zero, add_zero]
    by_cases h0 : k = 0
    · rw [if_pos h0, if_neg (by omega)]
    · rw [if_neg h0]
      exact if_congr (by omega) rfl rfl

/-! ## The rows of a point's blocks are rows of the arrays -/

theorem rows_step (c : Dev nD) (t : Fin cfg0.N) (b : Fin 16) :
    rowStep (row3 (blk0 m c t) b) (row3 (blk1 m c t) b) (row4 (blk2 m c t) b)
      = stepAt (predsArr m c) (posArr m c) (negsArr m c) (stepOf t) (rowOf t b) := by
  unfold stepAt row3 row4
  have e0 : (fun d => blk0 m c t (ix3 0 b d)) = fun d => predsArr m c (ix3 (stepOf t) (rowOf t b) d) := funext fun d => blk0_apply m c t b d
  have e1 : (fun d => blk1 m c t (ix3 0 b d)) = fun d => posArr m c (ix3 (stepOf t) (rowOf t b) d) := funext fun d => blk1_apply m c t b d
  have e2 : (fun n d => blk2 m c t (ix4 0 b n d)) = fun n d => negsArr m c (ix4 (stepOf t) (rowOf t b) n d) := funext fun n => funext fun d => blk2_apply m c t b n d
  rw [e0, e1, e2]

theorem rows_correct (c : Dev nD) (t : Fin cfg0.N) (b : Fin 16) :
    rowCorrect (row3 (blk0 m c t) b) (row3 (blk1 m c t) b) (row4 (blk2 m c t) b)
      = correctAt (predsArr m c) (posArr m c) (negsArr m c) (stepOf t) (rowOf t b) := by
  unfold correctAt row3 row4
  have e0 : (fun d => blk0 m c t (ix3 0 b d)) = fun d => predsArr m c (ix3 (stepOf t) (rowOf t b) d) := funext fun d => blk0_apply m c t b d
  have e1 : (fun d => blk1 m c t (ix3 0 b d)) = fun d => posArr m c (ix3 (stepOf t) (rowOf t b) d) := funext fun d => blk1_apply m c t b d
  have e2 : (fun n d => blk2 m c t (ix4 0 b n d)) = fun n d => negsArr m c (ix4 (stepOf t) (rowOf t b) n d) := funext fun n => funext fun d => blk2_apply m c t b n d
  rw [e0, e1, e2]

/-! ## One point of the grid -/

/-- At the first step of a row block: the cleared block plus the step's masked column. -/
theorem pointA (c : Dev nD) (t : Fin cfg0.N) (h0 : t.val % 12 = 0) (b : Fin 16) (j : Fin 12) :
    (outsAt0 m c t.val t.isLt).1 (ix2 b j)
        = 0 + stepAt (predsArr m c) (posArr m c) (negsArr m c) (stepOf t) (rowOf t b) * (if j.val = t.val % 12 then (1 : EReal) else 0)
    ∧ (outsAt0 m c t.val t.isLt).2 (ix2 b j)
        = 0 + correctAt (predsArr m c) (posArr m c) (negsArr m c) (stepOf t) (rowOf t b) * (if j.val = t.val % 12 then (1 : EReal) else 0) := by
  rw [outsAt0_A m c t h0]
  dsimp only
  constructor
  · refine (congrFun (out_A_3 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (blk0 m c t) (blk1 m c t) (blk2 m c t)) (ix2 b j)).trans ?_
    rw [pay1_apply, pay11_eq, pay3_apply, pay8_apply, pay10_apply, coord1 t, rows_step]
  · refine (congrFun (out_A_4 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (blk0 m c t) (blk1 m c t) (blk2 m c t)) (ix2 b j)).trans ?_
    rw [pay2_apply, pay4_apply, pay9_apply, pay10_apply, coord1 t, rows_correct]

/-- At a later step: what the step before left plus the step's masked column. -/
theorem pointB (c : Dev nD) (t : Fin cfg0.N) (h0 : ¬t.val % 12 = 0) (b : Fin 16) (j : Fin 12) :
    (outsAt0 m c t.val t.isLt).1 (ix2 b j)
        = (outsAt0 m c (t.val - 1) (Nat.lt_of_le_of_lt (Nat.sub_le _ _) t.isLt)).1 (ix2 b j)
          + stepAt (predsArr m c) (posArr m c) (negsArr m c) (stepOf t) (rowOf t b) * (if j.val = t.val % 12 then (1 : EReal) else 0)
    ∧ (outsAt0 m c t.val t.isLt).2 (ix2 b j)
        = (outsAt0 m c (t.val - 1) (Nat.lt_of_le_of_lt (Nat.sub_le _ _) t.isLt)).2 (ix2 b j)
          + correctAt (predsArr m c) (posArr m c) (negsArr m c) (stepOf t) (rowOf t b) * (if j.val = t.val % 12 then (1 : EReal) else 0) := by
  rw [outsAt0_B m c t h0]
  dsimp only
  constructor
  · refine (congrFun (out_B_3 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (blk0 m c t) (blk1 m c t) (blk2 m c t)
      (outsAt0 m c (t.val - 1) (Nat.lt_of_le_of_lt (Nat.sub_le _ _) t.isLt)).1 (outsAt0 m c (t.val - 1) (Nat.lt_of_le_of_lt (Nat.sub_le _ _) t.isLt)).2) (ix2 b j)).trans ?_
    rw [pay1_apply, pay11_eq, pay8_apply, pay10_apply, coord1 t, rows_step]
  · refine (congrFun (out_B_4 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (blk0 m c t) (blk1 m c t) (blk2 m c t)
      (outsAt0 m c (t.val - 1) (Nat.lt_of_le_of_lt (Nat.sub_le _ _) t.isLt)).1 (outsAt0 m c (t.val - 1) (Nat.lt_of_le_of_lt (Nat.sub_le _ _) t.isLt)).2) (ix2 b j)).trans ?_
    rw [pay2_apply, pay9_apply, pay10_apply, coord1 t, rows_correct]

/-! ## Every point: the closed form -/

/-- After point n, column j of row b of the two blocks holds step j's value of array row rowOf n b when j is at
    most n's step, and 0 otherwise. By induction on the point: a first step starts from 0, a later step adds
    onto what the step before left for the same rows. -/
theorem outsAt_eq (c : Dev nD) : ∀ (n : ℕ) (hn : n < cfg0.N) (b : Fin 16) (j : Fin 12),
    (outsAt0 m c n hn).1 (ix2 b j)
        = (if j.val ≤ n % 12 then stepAt (predsArr m c) (posArr m c) (negsArr m c) j (rowOf ⟨n, hn⟩ b) else 0)
    ∧ (outsAt0 m c n hn).2 (ix2 b j)
        = (if j.val ≤ n % 12 then correctAt (predsArr m c) (posArr m c) (negsArr m c) j (rowOf ⟨n, hn⟩ b) else 0)
  | n, hn, b, j => by
    have hk : n % 12 < 12 := Nat.mod_lt _ (by decide)
    by_cases h0 : n % 12 = 0
    · obtain ⟨e1, e2⟩ := pointA m c ⟨n, hn⟩ h0 b j
      constructor
      · refine e1.trans ?_
        exact acc_closed (fun k => stepAt (predsArr m c) (posArr m c) (negsArr m c) k (rowOf ⟨n, hn⟩ b)) (n % 12) hk j 0 (by rw [if_pos h0])
      · refine e2.trans ?_
        exact acc_closed (fun k => correctAt (predsArr m c) (posArr m c) (negsArr m c) k (rowOf ⟨n, hn⟩ b)) (n % 12) hk j 0 (by rw [if_pos h0])
    · obtain ⟨e1, e2⟩ := pointB m c ⟨n, hn⟩ h0 b j
      have hpos : 0 < n := Nat.pos_of_ne_zero fun hz => h0 (by rw [hz])
      have hlt : n - 1 < cfg0.N := Nat.lt_of_le_of_lt (Nat.sub_le _ _) hn
      obtain ⟨p1, p2⟩ := outsAt_eq c (n - 1) hlt b j
      have hrow : rowOf ⟨n - 1, hlt⟩ b = rowOf ⟨n, hn⟩ b := by
        apply Fin.ext
        show (n - 1) / 12 * 16 + b.val = n / 12 * 16 + b.val
        have : (n - 1) / 12 = n / 12 := by omega
        rw [this]
      have hmod : (n - 1) % 12 = n % 12 - 1 := by omega
      constructor
      · refine e1.trans ?_
        refine acc_closed (fun k => stepAt (predsArr m c) (posArr m c) (negsArr m c) k (rowOf ⟨n, hn⟩ b)) (n % 12) hk j _ ?_
        rw [if_neg h0]
        refine p1.trans ?_
        rw [hrow, hmod]
      · refine e2.trans ?_
        refine acc_closed (fun k => correctAt (predsArr m c) (posArr m c) (negsArr m c) k (rowOf ⟨n, hn⟩ b)) (n % 12) hk j _ ?_
        rw [if_neg h0]
        refine p2.trans ?_
        rw [hrow, hmod]
  termination_by n => n
  decreasing_by omega

/-! ## What is written back, and where -/

/-- Row b, column j of point t's output block is row (rowOf t b), column j of the array. -/
theorem emb3 (t : Fin cfg0.N) (b : Fin 16) (j : Fin 12) :
    ((cfg0.win 3).blk t).view.emb (ix2 b j) = ix2 (rowOf t b) j := by
  funext a
  apply Fin.ext
  match a with
  | ⟨0, _⟩ => show win0_3.index t 0 * 16 + 1 * b.val = t.val / 12 * 16 + b.val; rw [(idx3 t).1]; omega
  | ⟨1, _⟩ => show win0_3.index t 1 * 12 + 1 * j.val = j.val; rw [(idx3 t).2]; omega
theorem emb4 (t : Fin cfg0.N) (b : Fin 16) (j : Fin 12) :
    ((cfg0.win 4).blk t).view.emb (ix2 b j) = ix2 (rowOf t b) j := by
  funext a
  apply Fin.ext
  match a with
  | ⟨0, _⟩ => show win0_4.index t 0 * 16 + 1 * b.val = t.val / 12 * 16 + b.val; rw [(idx4 t).1]; omega
  | ⟨1, _⟩ => show win0_4.index t 1 * 12 + 1 * j.val = j.val; rw [(idx4 t).2]; omega

/-- The write-back of the first output, at the last step of a row block, writes that block of the array of log-ratios. -/
theorem flushed3_eq (c : Dev nD) (t : Fin cfg0.N) (hf : (cfg0.win 3).flush t = true) :
    (dats m 0 c).flushed 3 t = ((cfg0.win 3).blk t).view.read (Elt Ideal) (stepArr (predsArr m c) (posArr m c) (negsArr m c)) := by
  have h11 : t.val % 12 = 11 := (flush0_3 t).mp hf
  show (cfg0.win 3).cut (grid0.coords t) ((dats m 0 c).after 3 t) = _
  rw [after0_3]
  funext y
  obtain ⟨b, j, rfl⟩ : ∃ (b : Fin 16) (j : Fin 12), y = ix2 b j := ⟨y 0, y 1, eq_ix2 y⟩
  rw [View.read_apply, emb3 t b j]
  show (outsAt0 m c t.val t.isLt).1 (ix2 b j) = stepAt (predsArr m c) (posArr m c) (negsArr m c) j (rowOf t b)
  rw [(outsAt_eq m c t.val t.isLt b j).1, if_pos (by have := j.isLt; omega)]

/-- The write-back of the second output likewise writes that block of the array of correctness values. -/
theorem flushed4_eq (c : Dev nD) (t : Fin cfg0.N) (hf : (cfg0.win 4).flush t = true) :
    (dats m 0 c).flushed 4 t = ((cfg0.win 4).blk t).view.read (Elt Ideal) (correctArr (predsArr m c) (posArr m c) (negsArr m c)) := by
  have h11 : t.val % 12 = 11 := (flush0_4 t).mp hf
  show (cfg0.win 4).cut (grid0.coords t) ((dats m 0 c).after 4 t) = _
  rw [after0_4]
  funext y
  obtain ⟨b, j, rfl⟩ : ∃ (b : Fin 16) (j : Fin 12), y = ix2 b j := ⟨y 0, y 1, eq_ix2 y⟩
  rw [View.read_apply, emb4 t b j]
  show (outsAt0 m c t.val t.isLt).2 (ix2 b j) = correctAt (predsArr m c) (posArr m c) (negsArr m c) j (rowOf t b)
  rw [(outsAt_eq m c t.val t.isLt b j).2, if_pos (by have := j.isLt; omega)]

/-- An index of the array is in point t's block exactly when each coordinate is in the block's range. -/
theorem mem_blk3 (t : Fin cfg0.N) (i : S256x12.Idx) :
    i ∈ ((cfg0.win 3).blk t).view.set ↔ ∀ a : Fin 2, win0_3.index t a * S16x12.size a ≤ (i a).val ∧ (i a).val < win0_3.index t a * S16x12.size a + S16x12.size a := by
  show i ∈ ((View.whole main_v17_0).slice (win0_3.rect t)).set ↔ _
  rw [View.set_slice_whole, Rect.mem_set_unit]
  exact Iff.rfl
theorem mem_blk4 (t : Fin cfg0.N) (i : S256x12.Idx) :
    i ∈ ((cfg0.win 4).blk t).view.set ↔ ∀ a : Fin 2, win0_4.index t a * S16x12.size a ≤ (i a).val ∧ (i a).val < win0_4.index t a * S16x12.size a + S16x12.size a := by
  show i ∈ ((View.whole main_v17_1).slice (win0_4.rect t)).set ↔ _
  rw [View.set_slice_whole, Rect.mem_set_unit]
  exact Iff.rfl

/-- The point that writes back the block holding row r: the last step of row block r / 16. -/
def lastOf (r : ℕ) (hr : r < 256) : Fin cfg0.N := ⟨r / 16 * 12 + 11, by rw [show cfg0.N = 192 from N_0]; omega⟩

/-- Every entry of the first output array is written back by the last step of its row block. -/
theorem cover3 (i : S256x12.Idx) : ∃ t : Fin cfg0.N, (cfg0.win 3).flush t = true ∧ i ∈ ((cfg0.win 3).blk t).view.set := by
  have h0 : (i 0).val < 256 := (i 0).isLt
  have h1 : (i 1).val < 12 := (i 1).isLt
  refine ⟨lastOf (i 0).val h0, (flush0_3 _).mpr (by show ((i 0).val / 16 * 12 + 11) % 12 = 11; omega), ?_⟩
  rw [mem_blk3]
  intro a
  have hv : (lastOf (i 0).val h0).val = (i 0).val / 16 * 12 + 11 := rfl
  match a with
  | ⟨0, _⟩ => show win0_3.index _ 0 * 16 ≤ (i 0).val ∧ (i 0).val < win0_3.index _ 0 * 16 + 16; rw [(idx3 _).1, hv]; omega
  | ⟨1, _⟩ => show win0_3.index _ 1 * 12 ≤ (i 1).val ∧ (i 1).val < win0_3.index _ 1 * 12 + 12; rw [(idx3 _).2]; omega
theorem cover4 (i : S256x12.Idx) : ∃ t : Fin cfg0.N, (cfg0.win 4).flush t = true ∧ i ∈ ((cfg0.win 4).blk t).view.set := by
  have h0 : (i 0).val < 256 := (i 0).isLt
  have h1 : (i 1).val < 12 := (i 1).isLt
  refine ⟨lastOf (i 0).val h0, (flush0_4 _).mpr (by show ((i 0).val / 16 * 12 + 11) % 12 = 11; omega), ?_⟩
  rw [mem_blk4]
  intro a
  have hv : (lastOf (i 0).val h0).val = (i 0).val / 16 * 12 + 11 := rfl
  match a with
  | ⟨0, _⟩ => show win0_4.index _ 0 * 16 ≤ (i 0).val ∧ (i 0).val < win0_4.index _ 0 * 16 + 16; rw [(idx4 _).1, hv]; omega
  | ⟨1, _⟩ => show win0_4.index _ 1 * 12 ≤ (i 1).val ∧ (i 1).val < win0_4.index _ 1 * 12 + 12; rw [(idx4 _).2]; omega

/-- After the run the first output array is the array of log-ratios, -/
theorem final3 (c : Dev nD) : (dats m 0 c).arrAt 3 cfg0.N = stepArr (predsArr m c) (posArr m c) (negsArr m c) :=
  (dats m 0 c).arrAt_eq_of_cover 3 (stepArr (predsArr m c) (posArr m c) (negsArr m c)) (flushed3_eq m c) cover3
/-- and the second the array of correctness values. -/
theorem final4 (c : Dev nD) : (dats m 0 c).arrAt 4 cfg0.N = correctArr (predsArr m c) (posArr m c) (negsArr m c) :=
  (dats m 0 c).arrAt_eq_of_cover 4 (correctArr (predsArr m c) (posArr m c) (negsArr m c)) (flushed4_eq m c) cover4

end Cert.KernelIdeal.Final

end
-- ==== Proof.Tail.lean ====
/-
  The operations after the region, read: after the region the program sums the first output array over its 12 columns, divides by 1548, sums over
  the 256 rows and divides by 256; and sums the second output array over its 256 rows.
-/
import proofs.«136555_j58669253263549_1_alg».proof.Proof.Gen.KernelIdeal.Frame
import proofs.«136555_j58669253263549_1_alg».proof.Proof.Spec
import proofs.«136555_j58669253263549_1_alg».proof.Proof.Blocks
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.Tail

open Idealize.ShloMosaic Idealize.ShloMosaic.TcCoe Idealize.SL.Sem Idealize.ShloMosaic.ValueIdx
open Idealize.ShloMosaic.Pipeline (Dat)
open Cert.KernelIdeal Cert.KernelIdeal.Gen Cert.Spec Cert.KernelIdeal.Blocks

variable (m : (ℓ : Loc nD τ sig) → Buf (Elt Ideal) ℓ) (ρ : Dev nD → PrngReg)

/-! ## The operations after the region, as functions of the two output arrays -/

/-- Mean over rows of the mean over columns. -/
def lossOf (O : Vec Ideal S256x12 .f32) : Vec Ideal S_ .f32 :=
  Host.divf (F := Ideal)
    (Host.reduceAdd (F := Ideal)
      (Host.divf (F := Ideal) (Host.reduceAdd (F := Ideal) O (constant (F := Ideal) S_ .f32 0x00000000#32) reducesTo_S256x12_S256_d1 h_S_)
        (broadcastInDim S256 ![] bcast_S_S256 (constant (F := Ideal) S_ .f32 0x44C18000#32)))
      (constant (F := Ideal) S_ .f32 0x00000000#32) reducesTo_S256_S_d0 h_S_)
    (constant (F := Ideal) S_ .f32 0x43800000#32)

/-- Column sums. -/
def countOf (O : Vec Ideal S256x12 .f32) : Vec Ideal S12 .f32 :=
  Host.reduceAdd (F := Ideal) O (constant (F := Ideal) S_ .f32 0x00000000#32) reducesTo_S256x12_S12_d0 h_S_

/-- The first result is the mean of means of the first output array, -/
theorem tail_v22 (c : Dev nD) :
    Pipeline.afterTail₀ cfgs (dats m) 0 (V0 m) [hostOps1] c main_v22 = lossOf ((dats m 0 c).arrAt 3 cfg0.N) := by
  unfold Pipeline.afterTail₀
  show StableHlo.after hostOps1 _ (Proc.devRef .tc main_v22) = _
  after_results
  have e : Pipeline.withArrays (cfgs 0).spec c (V0 m c) (fun w => (dats m 0 c).arrAt w (cfgs 0).N) (Proc.devRef .tc main_v17_0)
      = (dats m 0 c).arrAt 3 cfg0.N := Pipeline.withArrays_arr spec0 launch0.win.arr_inj c _ _ 3
  rw [e]
  rfl

/-- and the second the column sums of the second. -/
theorem tail_v23 (c : Dev nD) :
    Pipeline.afterTail₀ cfgs (dats m) 0 (V0 m) [hostOps1] c main_v23 = countOf ((dats m 0 c).arrAt 4 cfg0.N) := by
  unfold Pipeline.afterTail₀
  show StableHlo.after hostOps1 _ (Proc.devRef .tc main_v23) = _
  after_results
  have e : Pipeline.withArrays (cfgs 0).spec c (V0 m c) (fun w => (dats m 0 c).arrAt w (cfgs 0).N) (Proc.devRef .tc main_v17_1)
      = (dats m 0 c).arrAt 4 cfg0.N := Pipeline.withArrays_arr spec0 launch0.win.arr_inj c _ _ 4
  rw [e]
  rfl

/-! ## The sums at an index -/

/-- A row's sum over the 12 columns. -/
theorem rowSum_apply (O : Vec Ideal S256x12 .f32) (r : Fin 256) :
    Host.reduceAdd (F := Ideal) O (constant (F := Ideal) S_ .f32 0x00000000#32) reducesTo_S256x12_S256_d1 h_S_ (ix1 r)
      = Ideal.ofBits .f32 0x00000000#32 + ∑ k : Fin 12, O (ix2 r k) := by
  simp only [Host.reduceAdd, Ideal.hostReduceAdd_def]
  rw [Ideal.hostReduceAdd_single reducesTo_S256x12_S256_d1 (by decide)]
  refine congrArg (_ + ·) (Finset.sum_congr rfl fun k _ => ?_)
  exact congrArg O (funext fun a => Fin.ext (by match a with | ⟨0, _⟩ => rfl | ⟨1, _⟩ => rfl))

/-- A column's sum over the 256 rows. -/
theorem colSum_apply (O : Vec Ideal S256x12 .f32) (j : Fin 12) :
    Host.reduceAdd (F := Ideal) O (constant (F := Ideal) S_ .f32 0x00000000#32) reducesTo_S256x12_S12_d0 h_S_ (ix1 j)
      = Ideal.ofBits .f32 0x00000000#32 + ∑ r : Fin 256, O (ix2 r j) := by
  simp only [Host.reduceAdd, Ideal.hostReduceAdd_def]
  rw [Ideal.hostReduceAdd_single reducesTo_S256x12_S12_d0 (by decide)]
  refine congrArg (_ + ·) (Finset.sum_congr rfl fun r _ => ?_)
  exact congrArg O (funext fun a => Fin.ext (by match a with | ⟨0, _⟩ => rfl | ⟨1, _⟩ => rfl))

/-- The sum of a length-256 vector. -/
theorem totalSum_apply (y : Vec Ideal S256 .f32) (i : S_.Idx) :
    Host.reduceAdd (F := Ideal) y (constant (F := Ideal) S_ .f32 0x00000000#32) reducesTo_S256_S_d0 h_S_ i
      = Ideal.ofBits .f32 0x00000000#32 + ∑ r : Fin 256, y (ix1 r) := by
  simp only [Host.reduceAdd, Ideal.hostReduceAdd_def]
  rw [Ideal.hostReduceAdd_total reducesTo_S256_S_d0 (fun b => b.elim0)]
  exact congrArg (_ + ·) (sum_idx1 y)

/-- Of the array of log-ratios the mean of means is the loss. -/
theorem lossOf_eq (P Q : A3) (N : A4) : lossOf (stepArr P Q N) = fun _ => Spec.loss P Q N := by
  funext i
  unfold lossOf
  show Ideal.div (Host.reduceAdd (F := Ideal) (Host.divf (F := Ideal) (Host.reduceAdd (F := Ideal) (stepArr P Q N) (constant (F := Ideal) S_ .f32 0x00000000#32) reducesTo_S256x12_S256_d1 h_S_)
      (broadcastInDim S256 ![] bcast_S_S256 (constant (F := Ideal) S_ .f32 0x44C18000#32))) (constant (F := Ideal) S_ .f32 0x00000000#32) reducesTo_S256_S_d0 h_S_ i) (Ideal.ofBits .f32 0x43800000#32) = _
  rw [totalSum_apply]
  unfold Spec.loss
  refine congrArg (fun z => Ideal.div (_ + z) _) (Finset.sum_congr rfl fun r _ => ?_)
  show Ideal.div (Host.reduceAdd (F := Ideal) (stepArr P Q N) (constant (F := Ideal) S_ .f32 0x00000000#32) reducesTo_S256x12_S256_d1 h_S_ (ix1 r)) (Ideal.ofBits .f32 0x44C18000#32) = _
  rw [rowSum_apply]
  rfl

/-- Of the array of correctness values the column sums are the correct counts. -/
theorem countOf_eq (P Q : A3) (N : A4) : countOf (correctArr P Q N) = fun j => Spec.correctCount P Q N (j 0) := by
  funext j
  obtain ⟨k, rfl⟩ : ∃ k : Fin 12, j = ix1 k := ⟨j 0, eq_ix1 j⟩
  unfold countOf
  rw [colSum_apply]
  rfl

/-! ## The arrays the region reads, in terms of the arguments -/

/-- The positives are the second argument, untouched. -/
theorem posArr_eq (c : Dev nD) : posArr m c = m ((c : Thread nD τ).loc main_arg1) := V_main_arg1 m c

end Cert.KernelIdeal.Tail

end
-- ==== Proof.KRun.lean ====
/-
  The idealized kernel's run, read: every weakly fair execution ends with the first result at the loss and
  the second at the correct counts of the arrays the region reads, the arguments unchanged.
-/
import proofs.«136555_j58669253263549_1_alg».proof.Proof.Gen.KernelIdeal.Frame
import proofs.«136555_j58669253263549_1_alg».proof.Proof.Spec
import proofs.«136555_j58669253263549_1_alg».proof.Proof.Blocks
import proofs.«136555_j58669253263549_1_alg».proof.Proof.Final
import proofs.«136555_j58669253263549_1_alg».proof.Proof.Tail

noncomputable section

namespace Cert.KernelIdeal.KRun

open Idealize.ShloMosaic Idealize.ShloMosaic.TcCoe Idealize.SL.Sem Idealize.ShloMosaic.ValueIdx
open Idealize.ShloMosaic.Pipeline (Dat)
open Cert.KernelIdeal Cert.KernelIdeal.Gen Cert.Spec Cert.KernelIdeal.Blocks Cert.KernelIdeal.Final Cert.KernelIdeal.Tail

variable (m : (ℓ : Loc nD τ sig) → Buf (Elt Ideal) ℓ) (ρ : Dev nD → PrngReg)

/-- The first result, as contents of its buffer. -/
abbrev lossBuf (c : Dev nD) : Buf (Elt Ideal) ((c.tc : Thread nD τ).loc main_v22) :=
  fun _ => Spec.loss (predsArr m c) (posArr m c) (negsArr m c)
/-- The second result, as contents of its buffer. -/
abbrev countBuf (c : Dev nD) : Buf (Elt Ideal) ((c.tc : Thread nD τ).loc main_v23) :=
  fun j => Spec.correctCount (predsArr m c) (posArr m c) (negsArr m c) (j 0)

theorem run : θ_run defs (onTc (τ := τ) (main (F := Ideal))) ⟨m, fun _ => 0, ρ⟩ (fun r => ∀ c : Dev nD,
      r.2.mem ((c.tc : Thread nD τ).loc main_v22) = lossBuf m c
      ∧ r.2.mem ((c.tc : Thread nD τ).loc main_v23) = countBuf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(((h c).2 main_v22 (Pipeline.mem_restRefs_of main_v22 (by decide) (by decide))).trans (tail_v22 m c)).trans
        ((congrArg lossOf (final3 m c)).trans (lossOf_eq _ _ _)),
      (((h c).2 main_v23 (Pipeline.mem_restRefs_of main_v23 (by decide) (by decide))).trans (tail_v23 m c)).trans
        ((congrArg countOf (final4 m c)).trans (countOf_eq _ _ _)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KRun

end
-- ==== Proof.RefValue.lean ====
/-
  The reference's two results, read back as the specification's loss and correct counts of the
  prediction slab, the positives and the gathered negatives.
-/
import proofs.«136555_j58669253263549_1_alg».proof.Proof.Gen.ReferenceIdeal.Read
import proofs.«136555_j58669253263549_1_alg».proof.Proof.Spec
import Idealize.ShloMosaic.Lib.ValueIdx
import Idealize.ShloMosaic.Lib.ReduceAll
import Idealize.ShloMosaic.PureOps.Ideal.Laws

noncomputable section

namespace Cert.ReferenceIdeal.RefValue

open Idealize.ShloMosaic Idealize.ShloMosaic.ValueIdx
open Cert.ReferenceIdeal Cert.ReferenceIdeal.Read Cert.Spec

/-! ## The arguments, and the composed index maps at coordinates -/

section
variable (x0 : (⟨S13x256x512, .f32⟩ : BufTy).Contents (Elt Ideal)) (x1 : (⟨S12x256x512, .f32⟩ : BufTy).Contents (Elt Ideal))
  (x2 x3 : (⟨S12x256x128, .i32⟩ : BufTy).Contents (Elt Ideal))

private theorem idx19_at (t : Fin 12) (r : Fin 256) (d : Fin 512) : idx_main_v19 (ix2 t r) d = ix3 t r d :=
  funext fun a => Fin.ext (by match a with | ⟨0, _⟩ => rfl | ⟨1, _⟩ => rfl | ⟨2, _⟩ => rfl)

private theorem idx24_at (t : Fin 12) (r : Fin 256) (n : Fin 128) (d : Fin 512) :
    idx_main_v24 (ix3 t r n) d = ix4 t r n d :=
  funext fun a => Fin.ext (by match a with | ⟨0, _⟩ => rfl | ⟨1, _⟩ => rfl | ⟨2, _⟩ => rfl | ⟨3, _⟩ => rfl)

private theorem idx20_21_at (t : Fin 12) (r : Fin 256) (n : Fin 128) (d : Fin 512) :
    idx_main_v20 (idx_main_v21 (ix4 t r n d)) = ix3 t r d :=
  funext fun a => Fin.ext (by match a with | ⟨0, _⟩ => rfl | ⟨1, _⟩ => rfl | ⟨2, _⟩ => rfl)

private theorem idx25_at (t : Fin 12) (r : Fin 256) (n : Fin 128) : idx_main_v25 (ix2 t r) n = ix3 t r n :=
  funext fun a => Fin.ext (by match a with | ⟨0, _⟩ => rfl | ⟨1, _⟩ => rfl | ⟨2, _⟩ => rfl)

private theorem idx29_at (r : Fin 256) (t : Fin 12) : idx_main_v29 (ix1 r) t = ix2 t r :=
  funext fun a => Fin.ext (by match a with | ⟨0, _⟩ => rfl | ⟨1, _⟩ => rfl)

private theorem idx34_35_at (t : Fin 12) (r : Fin 256) (n : Fin 128) :
    idx_main_v34 (idx_main_v35 (ix3 t r n)) = ix2 t r :=
  funext fun a => Fin.ext (by match a with | ⟨0, _⟩ => rfl | ⟨1, _⟩ => rfl)

private theorem idx39_at (t : Fin 12) (r : Fin 256) : idx_main_v39 (ix1 t) r = ix2 t r :=
  funext fun a => Fin.ext (by match a with | ⟨0, _⟩ => rfl | ⟨1, _⟩ => rfl)

/-! ## The scores -/

/-- The positive score of (step t, row r): the sum over d of exp (p_d · q_d). -/
private theorem v19_at (t : Fin 12) (r : Fin 256) :
    val_main_v19 (F := Ideal) x0 x1 (ix2 t r)
      = rowScore (fun d => val_main_v16 (F := Ideal) x0 (ix3 t r d)) (fun d => x1 (ix3 t r d)) := by
  rw [val_main_v19_apply, val_main_cst_apply, Ideal.ofBits_def, Ideal.ofBits_zero_f32, zero_add]
  unfold rowScore
  refine Finset.sum_congr rfl fun d _ => ?_
  rw [idx19_at, val_main_v18_apply, val_main_v17_apply, Ideal.hostUnary_exp_def, Ideal.mulf_def]

/-- The n-th negative score of (step t, row r). -/
private theorem v24_at (t : Fin 12) (r : Fin 256) (n : Fin 128) :
    val_main_v24 (F := Ideal) x0 x1 x2 x3 (ix3 t r n)
      = rowScore (fun d => val_main_v16 (F := Ideal) x0 (ix3 t r d))
          (fun d => val_main_v15 (F := Ideal) x0 x1 x2 x3 (ix4 t r n d)) := by
  rw [val_main_v24_apply, val_main_cst_3_apply, Ideal.ofBits_def, Ideal.ofBits_zero_f32, zero_add]
  unfold rowScore
  refine Finset.sum_congr rfl fun d _ => ?_
  rw [idx24_at, val_main_v23_apply, val_main_v22_apply, val_main_v21_apply, val_main_v20_apply, idx20_21_at,
    Ideal.hostUnary_exp_def, Ideal.mulf_def]

/-- The sum of the negative scores of (step t, row r). -/
private theorem v25_at (t : Fin 12) (r : Fin 256) :
    val_main_v25 (F := Ideal) x0 x1 x2 x3 (ix2 t r)
      = ∑ n : Fin 128, rowScore (fun d => val_main_v16 (F := Ideal) x0 (ix3 t r d))
          (fun d => val_main_v15 (F := Ideal) x0 x1 x2 x3 (ix4 t r n d)) := by
  rw [val_main_v25_apply, val_main_cst_4_apply, Ideal.ofBits_def, Ideal.ofBits_zero_f32, zero_add]
  refine Finset.sum_congr rfl fun n _ => ?_
  rw [idx25_at, v24_at]

/-- The log-ratio of (step t, row r). -/
private theorem v28_at (t : Fin 12) (r : Fin 256) :
    val_main_v28 (F := Ideal) x0 x1 x2 x3 (ix2 t r)
      = stepAt (val_main_v16 (F := Ideal) x0) x1 (val_main_v15 (F := Ideal) x0 x1 x2 x3) t r := by
  rw [val_main_v28_apply, val_main_v27_apply, val_main_v26_apply, v19_at, v25_at,
    Ideal.hostUnary_log_def, Ideal.hostDivf_def, Ideal.addf_def]
  rfl

end

/-! ## The loss -/

section
variable (x0 : (⟨S13x256x512, .f32⟩ : BufTy).Contents (Elt Ideal)) (x1 : (⟨S12x256x512, .f32⟩ : BufTy).Contents (Elt Ideal))
  (x2 x3 : (⟨S12x256x128, .i32⟩ : BufTy).Contents (Elt Ideal))

/-- Row r's sum of the steps' log-ratios. -/
private theorem v29_at (r : Fin 256) :
    val_main_v29 (F := Ideal) x0 x1 x2 x3 (ix1 r)
      = Ideal.ofBits .f32 0x00000000#32
        + ∑ t : Fin 12, stepAt (val_main_v16 (F := Ideal) x0) x1 (val_main_v15 (F := Ideal) x0 x1 x2 x3) t r := by
  rw [val_main_v29_apply, val_main_cst_5_apply, Ideal.ofBits_def]
  refine congrArg (_ + ·) (Finset.sum_congr rfl fun t _ => ?_)
  rw [idx29_at, v28_at]

/-- Row r's mean over the steps. -/
private theorem v31_at (r : Fin 256) :
    val_main_v31 (F := Ideal) x0 x1 x2 x3 (ix1 r)
      = Ideal.div (Ideal.ofBits .f32 0x00000000#32
          + ∑ t : Fin 12, stepAt (val_main_v16 (F := Ideal) x0) x1 (val_main_v15 (F := Ideal) x0 x1 x2 x3) t r)
          (Ideal.ofBits .f32 0x44C18000#32) := by
  rw [val_main_v31_apply, v29_at, val_main_v30_apply, val_main_cst_6_apply, Ideal.hostDivf_def, Ideal.ofBits_def]

end

/-! ## The correct counts -/

/-- A left fold by `and` from 1 over one-bit words that are all 1 is 1. -/
private theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons.2 (Or.inl rfl)), IntOp.andi_eq_one.2 ⟨rfl, rfl⟩]
    exact foldl_andi_one f l fun n hn => h n (List.mem_cons.2 (Or.inr hn))

/-- The comparison word of a decided proposition is 1 exactly when the proposition holds. -/
private theorem ofBool_decide_eq_one (p : Prop) [Decidable p] : BitVec.ofBool (decide p) = 1#1 ↔ p := by
  by_cases hp : p <;> simp [hp]

/-- Dropping the last coordinate of (t, r, n) leaves (t, r). -/
private theorem drop_ix3 (t : Fin 12) (r : Fin 256) (n : Fin 128) :
    Gen.reducesTo_S12x256x128_S12x256_d2.drop (ix3 t r n) = ix2 t r :=
  funext fun b => Fin.ext (by match b with | ⟨0, _⟩ => rfl | ⟨1, _⟩ => rfl)

/-- The reduction by `and` over the last axis, from 1, is 1 at (t, r) exactly when every entry (t, r, n) is 1. -/
private theorem reduce_andi_iff (x : S12x256x128.Idx → BitVec 1) (init : S_.Idx → BitVec 1)
    (hinit : init (Shape.Idx.first Gen.h_S_) = 1#1) (t : Fin 12) (r : Fin 256) :
    Host.reduce IntOp.andi x init Gen.reducesTo_S12x256x128_S12x256_d2 Gen.h_S_ (ix2 t r) = 1#1
      ↔ ∀ n : Fin 128, x (ix3 t r n) = 1#1 := by
  constructor
  · intro e n
    exact Host.reduce_andi_eq_one x init _ _ _ e (ix3 t r n) (drop_ix3 t r n)
  · intro hall
    rw [Host.reduce_eq_foldl, hinit]
    refine foldl_andi_one x _ fun i hi => ?_
    have hd : Gen.reducesTo_S12x256x128_S12x256_d2.drop i = ix2 t r := of_decide_eq_true (List.mem_filter.1 hi).2
    have h0 : (i 0).val = t.val :=
      (Shape.ReducesTo.drop_apply_val_of_eq Gen.reducesTo_S12x256x128_S12x256_d2 i 0 0).symm.trans
        (congrArg (fun j : S12x256.Idx => (j 0).val) hd)
    have h1 : (i 1).val = r.val :=
      (Shape.ReducesTo.drop_apply_val_of_eq Gen.reducesTo_S12x256x128_S12x256_d2 i 1 1).symm.trans
        (congrArg (fun j : S12x256.Idx => (j 1).val) hd)
    have hi3 : i = ix3 t r (show Fin 128 from i 2) :=
      funext fun a => Fin.ext (by match a with | ⟨0, _⟩ => exact h0 | ⟨1, _⟩ => exact h1 | ⟨2, _⟩ => rfl)
    rw [hi3]
    exact hall _

section
variable (x0 : (⟨S13x256x512, .f32⟩ : BufTy).Contents (Elt Ideal)) (x1 : (⟨S12x256x512, .f32⟩ : BufTy).Contents (Elt Ideal))
  (x2 x3 : (⟨S12x256x128, .i32⟩ : BufTy).Contents (Elt Ideal))

/-- The comparison word at (t, r, n): does the positive score exceed the n-th negative score? -/
private theorem v36_at (t : Fin 12) (r : Fin 256) (n : Fin 128) :
    val_main_v36 (F := Ideal) x0 x1 x2 x3 (ix3 t r n)
      = BitVec.ofBool (decide (
          rowScore (fun d => val_main_v16 (F := Ideal) x0 (ix3 t r d))
            (fun d => val_main_v15 (F := Ideal) x0 x1 x2 x3 (ix4 t r n d))
          < rowScore (fun d => val_main_v16 (F := Ideal) x0 (ix3 t r d)) (fun d => x1 (ix3 t r d)))) := by
  rw [val_main_v36_apply, val_main_v35_apply, val_main_v34_apply, idx34_35_at, v19_at, v24_at, Ideal.cmpf_def]
  rfl

/-- The correctness of (step t, row r) as 0 or 1. -/
private theorem v38_at (t : Fin 12) (r : Fin 256) :
    val_main_v38 (F := Ideal) x0 x1 x2 x3 (ix2 t r)
      = correctAt (val_main_v16 (F := Ideal) x0) x1 (val_main_v15 (F := Ideal) x0 x1 x2 x3) t r := by
  have hiff : val_main_v37 (F := Ideal) x0 x1 x2 x3 (ix2 t r) = 1#1
      ↔ ∀ n : Fin 128,
          rowScore (fun d => val_main_v16 (F := Ideal) x0 (ix3 t r d))
            (fun d => val_main_v15 (F := Ideal) x0 x1 x2 x3 (ix4 t r n d))
          < rowScore (fun d => val_main_v16 (F := Ideal) x0 (ix3 t r d)) (fun d => x1 (ix3 t r d)) := by
    unfold val_main_v37
    rw [reduce_andi_iff _ _ rfl]
    refine forall_congr' fun n => ?_
    rw [v36_at, ofBool_decide_eq_one]
  rw [val_main_v38_apply]
  show (((val_main_v37 (F := Ideal) x0 x1 x2 x3 (ix2 t r)).toNat : ℝ) : EReal) = _
  rw [Spec.uitofp_bit]
  unfold Spec.ind correctAt rowCorrect
  by_cases h : val_main_v37 (F := Ideal) x0 x1 x2 x3 (ix2 t r) = 1#1
  · rw [if_pos h, if_pos (hiff.1 h)]
  · rw [if_neg h, if_neg (mt hiff.2 h)]

end

/-- The reference's first result is the loss. -/
theorem loss_eq (x0 : (⟨S13x256x512, .f32⟩ : BufTy).Contents (Elt Ideal)) (x1 : (⟨S12x256x512, .f32⟩ : BufTy).Contents (Elt Ideal))
    (x2 x3 : (⟨S12x256x128, .i32⟩ : BufTy).Contents (Elt Ideal)) :
    val_main_v33 (F := Ideal) x0 x1 x2 x3
      = fun _ => Spec.loss (val_main_v16 (F := Ideal) x0) x1 (val_main_v15 (F := Ideal) x0 x1 x2 x3) := by
  funext i
  rw [val_main_v33_apply, val_main_v32_apply, val_main_cst_7_apply, val_main_cst_8_apply, Ideal.hostDivf_def,
    Ideal.ofBits_def, Ideal.ofBits_def, Spec.sum_idx1]
  unfold Spec.loss
  refine congrArg (Ideal.div · _) (congrArg (_ + ·) (Finset.sum_congr rfl fun r _ => ?_))
  exact v31_at x0 x1 x2 x3 r

/-- The reference's second result is the correct count of each step. -/
theorem count_eq (x0 : (⟨S13x256x512, .f32⟩ : BufTy).Contents (Elt Ideal)) (x1 : (⟨S12x256x512, .f32⟩ : BufTy).Contents (Elt Ideal))
    (x2 x3 : (⟨S12x256x128, .i32⟩ : BufTy).Contents (Elt Ideal)) :
    val_main_v39 (F := Ideal) x0 x1 x2 x3
      = fun j => Spec.correctCount (val_main_v16 (F := Ideal) x0) x1 (val_main_v15 (F := Ideal) x0 x1 x2 x3) (j 0) := by
  funext j
  obtain ⟨t, rfl⟩ : ∃ t : Fin 12, j = ix1 t := ⟨j 0, eq_ix1 j⟩
  rw [val_main_v39_apply, val_main_cst_10_apply, Ideal.ofBits_def]
  unfold Spec.correctCount
  refine congrArg (_ + ·) (Finset.sum_congr rfl fun r _ => ?_)
  rw [idx39_at]
  exact v38_at x0 x1 x2 x3 t r

end Cert.ReferenceIdeal.RefValue

end
-- ==== Proof.lean ====
/-
  The certificate's claim: the three programs run and leave their arguments unchanged, and the idealized kernel
  and the idealized reference, run from the same arguments, end with the same two results over the extended
  reals.

  Both programs first build, by the same operations, the slab of predictions (rows 1 … 12 of the first
  argument) and the array of negatives gathered from the bank at the two index arguments; these are carried as
  two arrays and never opened. On them both compute, for each step and batch row, the positive score
  ∑_d exp (p_d · q_d), the 128 negative scores, the log-ratio log (S⁺ / (S⁺ + ∑_n S⁻_n)) and whether S⁺ exceeds
  every S⁻_n. The reference does this on whole arrays; the kernel does it 16 rows and one step at a time,
  adding each step's column into a [16, 12] block through a 0/1 column mask, and counts the comparisons that
  hold instead of taking their conjunction (a sum of 128 indicators reaches 128 exactly when all are 1). Summing
  the columns and the rows afterwards is the same on both sides. Of the arithmetic of the extended reals the
  masked accumulation uses only x · 0 = 0, x · 1 = x and 0 + x = x, none of which asks for a finite x, so the
  precondition is never opened.
-/
import proofs.«136555_j58669253263549_1_alg».proof.Defs
import proofs.«136555_j58669253263549_1_alg».proof.Proof.Gen.Kernel
import proofs.«136555_j58669253263549_1_alg».proof.Proof.Gen.Kernel.Frame
import proofs.«136555_j58669253263549_1_alg».proof.Proof.Gen.KernelIdeal
import proofs.«136555_j58669253263549_1_alg».proof.Proof.Gen.KernelIdeal.Frame
import proofs.«136555_j58669253263549_1_alg».proof.Proof.Gen.ReferenceIdeal
import proofs.«136555_j58669253263549_1_alg».proof.Proof.Gen.Pre_finite_inputs
import proofs.«136555_j58669253263549_1_alg».proof.Proof.Gen.ReferenceIdeal.Run
import proofs.«136555_j58669253263549_1_alg».proof.Proof.Gen.ReferenceIdeal.Read
import proofs.«136555_j58669253263549_1_alg».proof.Proof.Spec
import proofs.«136555_j58669253263549_1_alg».proof.Proof.Blocks
import proofs.«136555_j58669253263549_1_alg».proof.Proof.KRun
import proofs.«136555_j58669253263549_1_alg».proof.Proof.RefValue
import Idealize.ShloMosaic.Lib.StableHlo.Run
import Idealize.ShloMosaic.Adequacy
import Idealize.ShloMosaic.Init

noncomputable section

/-! ## The arrays the kernel's region reads are the reference's own intermediate arrays -/

namespace Cert.Proof.Bridge

open Idealize.ShloMosaic Idealize.ShloMosaic.TcCoe Idealize.SL.Sem
open Cert.KernelIdeal Cert.KernelIdeal.Gen Cert.KernelIdeal.Blocks

variable (m : (ℓ : Loc nD τ sig) → Buf (Elt Ideal) ℓ)

/-- The prediction slab the region reads is the reference's slice of the first argument. -/
theorem preds_eq (c : Dev nD) :
    predsArr m c = Cert.ReferenceIdeal.Read.val_main_v16 (F := Ideal) (m ((c.tc : Thread nD τ).loc main_arg0)) := by
  show StableHlo.after hostOps0 (fun b => m (c, b)) (Proc.devRef .tc main_v16) = _
  after_results
  rfl

set_option maxHeartbeats 2000000 in
/-- The negatives the region reads are the reference's gather from the bank at the normalized indices. -/
theorem negs_eq (c : Dev nD) :
    negsArr m c = Cert.ReferenceIdeal.Read.val_main_v15 (F := Ideal) (m ((c.tc : Thread nD τ).loc main_arg0)) (m ((c.tc : Thread nD τ).loc main_arg1))
      (m ((c.tc : Thread nD τ).loc main_arg2)) (m ((c.tc : Thread nD τ).loc main_arg3)) := by
  show StableHlo.after hostOps0 (fun b => m (c, b)) (Proc.devRef .tc main_v15) = _
  after_results_simp <;> rfl

end Cert.Proof.Bridge

namespace Cert.Proof

open Idealize.ShloMosaic Idealize.SL.Sem

/-- The two results as functions of the three arrays. -/
def lossFn (P Q : Spec.A3) (N : Spec.A4) : (⟨0, ![]⟩ : Shape).Idx → EReal := fun _ => Spec.loss P Q N
def countFn (P Q : Spec.A3) (N : Spec.A4) : (⟨1, ![12]⟩ : Shape).Idx → EReal := fun j => Spec.correctCount P Q N (j 0)

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- Both runs end at the loss and the correct counts of the same three arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KRun.lossBuf m c, fun c => Cert.KernelIdeal.KRun.countBuf m c, Cert.KernelIdeal.KRun.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine ((Cert.ReferenceIdeal.Read.val_main_v33_eq _ _ _ _).trans (Cert.ReferenceIdeal.RefValue.loss_eq _ _ _ _)).trans ?_
    show lossFn (Cert.ReferenceIdeal.Read.val_main_v16 (F := Ideal) (m' ((c.tc : Thread Cert.ReferenceIdeal.nD Cert.ReferenceIdeal.τ).loc Cert.ReferenceIdeal.main_arg0)))
        (m' ((c.tc : Thread Cert.ReferenceIdeal.nD Cert.ReferenceIdeal.τ).loc Cert.ReferenceIdeal.main_arg1))
        (Cert.ReferenceIdeal.Read.val_main_v15 (F := Ideal) (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3)))
      = lossFn (Cert.KernelIdeal.Blocks.predsArr m c) (Cert.KernelIdeal.Blocks.posArr m c) (Cert.KernelIdeal.Blocks.negsArr m c)
    rw [(hagree c).1, (hagree c).2.1, (hagree c).2.2.1, (hagree c).2.2.2, Bridge.preds_eq, Bridge.negs_eq, Cert.KernelIdeal.Tail.posArr_eq]
  · refine ((Cert.ReferenceIdeal.Read.val_main_v39_eq _ _ _ _).trans (Cert.ReferenceIdeal.RefValue.count_eq _ _ _ _)).trans ?_
    show countFn (Cert.ReferenceIdeal.Read.val_main_v16 (F := Ideal) (m' ((c.tc : Thread Cert.ReferenceIdeal.nD Cert.ReferenceIdeal.τ).loc Cert.ReferenceIdeal.main_arg0)))
        (m' ((c.tc : Thread Cert.ReferenceIdeal.nD Cert.ReferenceIdeal.τ).loc Cert.ReferenceIdeal.main_arg1))
        (Cert.ReferenceIdeal.Read.val_main_v15 (F := Ideal) (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3)))
      = countFn (Cert.KernelIdeal.Blocks.predsArr m c) (Cert.KernelIdeal.Blocks.posArr m c) (Cert.KernelIdeal.Blocks.negsArr m c)
    rw [(hagree c).1, (hagree c).2.1, (hagree c).2.2.1, (hagree c).2.2.2, Bridge.preds_eq, Bridge.negs_eq, Cert.KernelIdeal.Tail.posArr_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
